-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x16384 : Shape := ⟨2, ![4096, 16384]⟩
abbrev S16384 : Shape := ⟨1, ![16384]⟩
abbrev S16384x4096 : Shape := ⟨2, ![16384, 4096]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S16384 : S_.BroadcastsInDim S16384 (![] : Fin 0 → Fin S16384.rank)
  reducesTo_S16384_S_d0 : S16384.ReducesTo [0] S_
  bcast_S_S16384x4096 : S_.BroadcastsInDim S16384x4096 (![] : Fin 0 → Fin S16384x4096.rank)
  reducesTo_S16384x4096_S_d0_1 : S16384x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S16384x4096 1) : IVec S_ 1 :=
  let main_c_5 : IVec S_ 1 := constantI S_ 1 1#1
  let main_v17 : IVec S_ 1 := (fun x v => Host.reduce IntOp.andi x v reducesTo_S16384x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S2x2048x4096 .f32) (main_arg1 : FVec F S4096x16384 .f32) (main_arg2 : FVec F S16384 .f32) (main_arg3 : FVec F S16384x4096 .f32) (main_arg4 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384x4096 .f32 := Host.absf main_arg3
  let main_cst_4 : FVec F S_ .f32 := constant S_ .f32 0x7F800000#32
  let main_v15 : FVec F S16384x4096 .f32 := broadcastInDim S16384x4096 ![] bcast_S_S16384x4096 main_cst_4
  let main_v16 : IVec S16384x4096 1 := cmpf .olt main_v14 main_v15
  fn_part1 (F := F) main_arg4 main_v13 main_v16
-- ==== Kernel.lean ====
abbrev S2x2048x4096 : Shape := ⟨3, ![2, 2048, 4096]⟩
abbrev S4096x16384 : Shape := ⟨2, ![4096, 16384]⟩
abbrev S16384 : Shape := ⟨1, ![16384]⟩
abbrev S16384x4096 : Shape := ⟨2, ![16384, 4096]⟩
abbrev S4096 : Shape := ⟨1, ![4096]⟩
abbrev S4096x4096 : Shape := ⟨2, ![4096, 4096]⟩
abbrev S1x16384 : Shape := ⟨2, ![1, 16384]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 11
  | .vmem => 18
  | .smem => 0
  | _ => 0

abbrev bufTy : (tb : Table) → Fin (tcTables nBuf tb) → BufTy
  | .hbm, ⟨0, _⟩ => ⟨S2x2048x4096, .f32⟩
  | .hbm, ⟨1, _⟩ => ⟨S4096x16384, .f32⟩
  | .hbm, ⟨2, _⟩ => ⟨S16384, .f32⟩
  | .hbm, ⟨3, _⟩ => ⟨S16384x4096, .f32⟩
  | .hbm, ⟨4, _⟩ => ⟨S4096, .f32⟩
  | .hbm, ⟨5, _⟩ => ⟨S4096x4096, .f32⟩
  | .hbm, ⟨6, _⟩ => ⟨S1x16384, .f32⟩
  | .hbm, ⟨7, _⟩ => ⟨S1x4096, .f32⟩
  | .hbm, ⟨8, _⟩ => ⟨S4096x16384, .bf16⟩
  | .hbm, ⟨9, _⟩ => ⟨S4096x4096, .f32⟩
  | .hbm, ⟨10, _⟩ => ⟨S2x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![4, 16, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 16], ![false, false, false]⟩

def k1_cond2 (i : grid1.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S2x2048x4096_S4096x4096 : S2x2048x4096.ShapeCasts S4096x4096
  shapeCasts_S16384_S1x16384 : S16384.ShapeCasts S1x16384
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S4096x4096_S2x2048x4096 : S4096x4096.ShapeCasts S2x2048x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x16384.size a
  hwx0_1 : ∀ i : grid0.Coords, EltTy.bits .f32 = 32 ∨ (Rect.block (s := S4096x16384) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x16384.size a
  hwx0_3 : ∀ i : grid0.Coords, EltTy.bits .bf16 = 32 ∨ (Rect.block (s := S4096x16384) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x16384.size a
  hwx1_0 : ∀ i : grid1.Coords, EltTy.bits .bf16 = 32 ∨ (Rect.block (s := S4096x16384) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S16384x4096.size a
  hwx1_1 : ∀ i : grid1.Coords, EltTy.bits .f32 = 32 ∨ (Rect.block (s := S16384x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x16384 : Shape := ⟨2, ![4096, 16384]⟩
abbrev S16384 : Shape := ⟨1, ![16384]⟩
abbrev S16384x4096 : Shape := ⟨2, ![16384, 4096]⟩
abbrev S4096 : Shape := ⟨1, ![4096]⟩
abbrev S2x2048x16384 : Shape := ⟨3, ![2, 2048, 16384]⟩
abbrev S1x1x16384 : Shape := ⟨3, ![1, 1, 16384]⟩
abbrev S_ : Shape := ⟨0, ![]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x16384, .f32⟩
  | .hbm, ⟨2, _⟩ => ⟨S16384, .f32⟩
  | .hbm, ⟨3, _⟩ => ⟨S16384x4096, .f32⟩
  | .hbm, ⟨4, _⟩ => ⟨S4096, .f32⟩
  | .hbm, ⟨5, _⟩ => ⟨S2x2048x16384, .f32⟩
  | .hbm, ⟨6, _⟩ => ⟨S1x1x16384, .f32⟩
  | .hbm, ⟨7, _⟩ => ⟨S2x2048x16384, .f32⟩
  | .hbm, ⟨8, _⟩ => ⟨S2x2048x16384, .f32⟩
  | .hbm, ⟨9, _⟩ => ⟨S2x2048x16384, .f32⟩
  | .hbm, ⟨10, _⟩ => ⟨S2x2048x16384, .f32⟩
  | .hbm, ⟨11, _⟩ => ⟨S_, .f32⟩
  | .hbm, ⟨12, _⟩ => ⟨S2x2048x16384, .f32⟩
  | .hbm, ⟨13, _⟩ => ⟨S2x2048x16384, .f32⟩
  | .hbm, ⟨14, _⟩ => ⟨S2x2048x16384, .f32⟩
  | .hbm, ⟨15, _⟩ => ⟨S_, .f32⟩
  | .hbm, ⟨16, _⟩ => ⟨S2x2048x16384, .f32⟩
  | .hbm, ⟨17, _⟩ => ⟨S2x2048x16384, .f32⟩
  | .hbm, ⟨18, _⟩ => ⟨S2x2048x16384, .f32⟩
  | .hbm, ⟨19, _⟩ => ⟨S_, .f32⟩
  | .hbm, ⟨20, _⟩ => ⟨S2x2048x16384, .f32⟩
  | .hbm, ⟨21, _⟩ => ⟨S2x2048x16384, .f32⟩
  | .hbm, ⟨22, _⟩ => ⟨S_, .f32⟩
  | .hbm, ⟨23, _⟩ => ⟨S2x2048x16384, .f32⟩
  | .hbm, ⟨24, _⟩ => ⟨S2x2048x16384, .f32⟩
  | .hbm, ⟨25, _⟩ => ⟨S2x2048x16384, .f32⟩
  | .hbm, ⟨26, _⟩ => ⟨S2x2048x4096, .f32⟩
  | .hbm, ⟨27, _⟩ => ⟨S1x1x4096, .f32⟩
  | .hbm, ⟨28, _⟩ => ⟨S2x2048x4096, .f32⟩
  | .hbm, ⟨29, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  bcast_S_S2x2048x16384 : S_.BroadcastsInDim S2x2048x16384 (![] : Fin 0 → Fin S2x2048x16384.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x16384_S2x2048x16384_2_0_01_1_n_n_wf : DotDims.WF S2x2048x4096 S4096x16384 S2x2048x16384 [2] [0] [0, 1] [1] [] []
  dot_S2x2048x16384_S16384x4096_S2x2048x4096_2_0_01_1_n_n_wf : DotDims.WF S2x2048x16384 S16384x4096 S2x2048x4096 [2] [0] [0, 1] [1] [] []

variable [Facts₀]

def dot_S2x2048x4096_S4096x16384_S2x2048x16384_2_0_01_1_n_n : DotDims S2x2048x4096 S4096x16384 S2x2048x16384 where
  lhsContracting := [2]
  rhsContracting := [0]
  lhsNonContracting := [0, 1]
  rhsNonContracting := [1]
  lhsBatch := []
  rhsBatch := []
  wf := dot_S2x2048x4096_S4096x16384_S2x2048x16384_2_0_01_1_n_n_wf
def dot_S2x2048x16384_S16384x4096_S2x2048x4096_2_0_01_1_n_n : DotDims S2x2048x16384 S16384x4096 S2x2048x4096 where
  lhsContracting := [2]
  rhsContracting := [0]
  lhsNonContracting := [0, 1]
  rhsNonContracting := [1]
  lhsBatch := []
  rhsBatch := []
  wf := dot_S2x2048x16384_S16384x4096_S2x2048x4096_2_0_01_1_n_n_wf

class Facts : Prop extends Facts₀ where

variable [Facts]
-- ==== Proof.BitsGemm1Scoped.lean ====
/-
  The first GEMM's accumulator among the core's scoped buffers: the scoped buffers that are no staging buffer of the
  first call are the accumulator and the second call's staging buffers and accumulator; the class invariant (all of
  them at anything, the generator register at some state) splits into the accumulator owned as a whole memref and the
  rest, and joins back.
-/
import proofs.«110432_j50285477101612_1_alg».proof.Proof.Gen.Kernel.Launch
import Idealize.ShloMosaic.Lib.Pipeline.FrameBody
import Idealize.ShloMosaic.Lib.Pipeline.FrameSuffix
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator: a whole scoped buffer of the kernel's own. -/
abbrev scM0 : Memref sig .tc .vmem S1024x1024 .f32 := Memref.whole cc0_scratch0

/-- The scoped rest of the core and its generator register, with the accumulator split out as a memref owned at some
    contents, and the other scoped buffers (the second call's staging buffers and accumulator) kept as they are. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

theorem PhiA0_split (c : Dev nD) :
    (Pipeline.ΦA spec0 c : sProp 𝕄)
      ⊢ iprop(iprop((∃ d, owns (c : Thread nD τ) scM0 fullShare d) ∗ otherScoped0 c) ∗ (∃ r, prngReg c r)) := by
  unfold Pipeline.ΦA otherScoped0; rw [scopedRest0_eq]; simp only [scM0, owns_whole]
  iintro ⟨⟨HS, H0, H1, H2, H3, H4, H5, H6, H7, H8⟩, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

theorem PhiA0_join (c : Dev nD) :
    iprop(iprop((∃ d, owns (c : Thread nD τ) scM0 fullShare d) ∗ otherScoped0 c) ∗ (∃ r, prngReg c r))
      ⊢ (Pipeline.ΦA spec0 c : sProp 𝕄) := by
  unfold Pipeline.ΦA otherScoped0; rw [scopedRest0_eq]; simp only [scM0, owns_whole]
  iintro ⟨⟨HS, H0, H1, H2, H3, H4, H5, H6, H7, H8⟩, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

end Cert.Kernel.Frame

end
-- ==== Proof.BitsGemm1Cases.lean ====
/-
  The first GEMM's kernel body (x-block · w-block accumulated into a VMEM scratch over the reduction axis k of the
  grid (i, j, k), the accumulator zeroed at k = 0, and at k = 3 the bias added, the tanh form of GELU applied and the
  block stored): what is shared by the three control cases of its two `scf.if`s.
  Case A (k = 0): zero the scratch, then accumulate; the output block is not touched.
  Case B (k = 1, 2): accumulate only; the output block is not touched.
  Case C (k = 3): accumulate, then read the scratch back, add the bias row, apply GELU, store the output block.
-/
import proofs.«110432_j50285477101612_1_alg».proof.Proof.BitsGemm1Scoped
import proofs.«110432_j50285477101612_1_alg».proof.Proof.Gen.Kernel.Skeleton
import proofs.«110432_j50285477101612_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, over the grid -/

/-- `k = 0`, as the body computes it from the grid coordinates. -/
abbrev cond0_0 (i : grid0.Coords) : Prop := (Scalar.cmpi .ne (Scalar.extui (Scalar.cmpi .eq (BitVec.ofNat 32 (i 2).val) 0#32)) 0#32) = 1#1
/-- It holds at the linear points ≡ 0 (mod 4): k is the fastest axis of the grid, of extent 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- `k = 3`, the last step of the reduction. -/
abbrev cond0_1 (i : grid0.Coords) : Prop := k0_cond2 i = 1#1
/-- It holds at the linear points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from k = 3 the body stores nothing into the output block, -/
theorem idleAt0_3 : ∀ t : Fin cfg0.N, ¬cond0_1 (grid0.coords t) → cfg0.idle 3 (grid0.coords t) = true := by decide +kernel
/-- and the pipeline does not write it back there. -/
theorem noFlush0_3 : ∀ t : Fin cfg0.N, ¬cond0_1 (grid0.coords t) → (cfg0.win 3).flush t = false := by decide +kernel
/-- At k = 3 it is stored. -/
theorem liveAt0_3 : ∀ t : Fin cfg0.N, cond0_1 (grid0.coords t) → cfg0.idle 3 (grid0.coords t) = false := by decide +kernel

/-! ## The memrefs the pipeline calls the body with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- One staging buffer of the output window, and the accumulator, as views: contents are stated through them. -/
abbrev VO0 : View sig .tc .vmem S1024x1024 .bf16 := (Memref.whole cc0_stg3_0 : Memref sig .tc .vmem S1024x1024 .bf16).view
abbrev VS0 : View sig .tc .vmem S1024x1024 .f32 := scM0.view

end Cert.Kernel.Frame

end
-- ==== Proof.BitsGemm1RunB.lean ====
/-
  The first GEMM's body at a middle step of the reduction (k = 1, 2): the scratch holds the partial sum the step before left; one product of the x-block and the w-block is added to it; the output block is handed back untouched.
-/
import proofs.«110432_j50285477101612_1_alg».proof.Proof.BitsGemm1Cases

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at a middle step, with the body's triple: inputs at their contents and back,
    the output block at `xi3` and back untouched, the accumulator from `xs0` to its pieces written. -/
noncomputable def kernelRun0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .f32) (x2 : Vec F S1x1024 .f32) (xs0 : Vec F S1024x1024 .f32) :
    { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__gemm1_kernel i arg3 harg3 arg4 harg4 arg5 harg5 arg6 harg6 arg7 harg7) K } := by
  refine ⟨?_, fun xi3 E K => ?run⟩
  case run =>
    simp only [cc0__gemm1_kernel_eq_skeleton]; unfold cc0__gemm1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frame

end
-- ==== Proof.BitsGemm1RunA.lean ====
/-
  The first GEMM's body at the first step of the reduction (k = 0): the scratch, whatever it held, is zeroed, and the product of the x-block and the w-block is added to it; the output block is handed back untouched.
-/
import proofs.«110432_j50285477101612_1_alg».proof.Proof.BitsGemm1RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at the first step (the zero store, then the sum), with the body's triple. -/
noncomputable def kernelRun0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .f32) (x2 : Vec F S1x1024 .f32) :
    { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__gemm1_kernel i arg3 harg3 arg4 harg4 arg5 harg5 arg6 harg6 arg7 harg7) K } := by
  refine ⟨?_, fun xi3 E K => ?run⟩
  case run =>
    simp only [cc0__gemm1_kernel_eq_skeleton]; unfold cc0__gemm1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frame

end
-- ==== Proof.BitsGemm1RunC.lean ====
/-
  The first GEMM's body at the last step of the reduction (k = 3): the last product is added to the scratch, the sum is read back, the bias row is added to every row, the tanh form of GELU is applied elementwise and the block is stored into the output window's buffer.
-/
import proofs.«110432_j50285477101612_1_alg».proof.Proof.BitsGemm1RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output block and the accumulator end with at the last step, with the body's triple: the output
    block from anything to its pieces written. -/
noncomputable def kernelRun0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .f32) (x2 : Vec F S1x1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__gemm1_kernel i arg3 harg3 arg4 harg4 arg5 harg5 arg6 harg6 arg7 harg7) K } := by
  refine ⟨?_, ?_, fun E K => ?run⟩
  case run =>
    simp only [cc0__gemm1_kernel_eq_skeleton]; unfold cc0__gemm1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Frame

end
-- ==== Proof.BitsGemm1Data.lean ====
/-
  The first GEMM's region, at the contents V its arrays hold when it is entered: each window's block at a grid point; what the accumulator and the output block hold after each point (a recursion on the linear point: at k = 0 the accumulator restarts from zero, at k = 1..3 it continues from what the point before left, at k = 3 the output block is GELU of the finished sum plus the bias row); the region's invariant (after a point, the accumulator at that point's contents; the other scoped buffers and the generator register at anything); the pipeline's proof data; and the body obligation at every point, by the three case runs.
-/
import proofs.«110432_j50285477101612_1_alg».proof.Proof.BitsGemm1RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (the bias row is
    fetched only when the column block changes; between fetches its block index does not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region

/-! ## What each case leaves in the accumulator and in the output block -/

theorem scover0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i) (x0 : Vec F S1024x1024 .f32) (x1 : Vec F S1024x1024 .f32) (x2 : Vec F S1x1024 .f32) (y : S1024x1024.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S1024x1024.size (by sl_kernel_rfl) y
/-- The accumulator after a first step (k = 0): its pieces read back. -/
def sout0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i) (x0 : Vec F S1024x1024 .f32) (x1 : Vec F S1024x1024 .f32) (x2 : Vec F S1x1024 .f32) : Vec F S1024x1024 .f32 :=
  VS0.read (Elt F) (VS0.writes (Elt F) VS0.junk (kernelRun0_A c i arg3 harg3 arg4 harg4 arg5 harg5 arg6 harg6 arg7 harg7 hc0 hc1 x0 x1 x2).1)

theorem scover0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i) (x0 : Vec F S1024x1024 .f32) (x1 : Vec F S1024x1024 .f32) (x2 : Vec F S1x1024 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).1, y ∈ pc.1.set :=
  View.cover_of_tiledL (kernelRun0_B c i arg3 harg3 arg4 harg4 arg5 harg5 arg6 harg6 arg7 harg7 hc0 hc1 x0 x1 x2 xs0).1 S1024x1024.size (by sl_kernel_rfl) y
/-- The accumulator after a middle step (k = 1, 2), from what the step before left. -/
def sout0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i) (x0 : Vec F S1024x1024 .f32) (x1 : Vec F S1024x1024 .f32) (x2 : Vec F S1x1024 .f32) (xs0 : Vec F S1024x1024 .f32) : Vec F S1024x1024 .f32 :=
  VS0.read (Elt F) (VS0.writes (Elt F) VS0.junk (kernelRun0_B c i arg3 harg3 arg4 harg4 arg5 harg5 arg6 harg6 arg7 harg7 hc0 hc1 x0 x1 x2 xs0).1)

theorem cover0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .f32) (x1 : Vec F S1024x1024 .f32) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1024x1024.size (by sl_kernel_rfl) y
/-- The output block after the last step (k = 3). -/
def out0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .f32) (x1 : Vec F S1024x1024 .f32) (x2 : Vec F S1x1024 .f32) (xs0 : Vec F S1024x1024 .f32) : Vec F S1024x1024 .bf16 :=
  VO0.read (Elt F) (VO0.writes (Elt F) VO0.junk (kernelRun0_C c i arg3 harg3 arg4 harg4 arg5 harg5 arg6 harg6 arg7 harg7 hc0 hc1 x0 x1 x2 xs0).1)
theorem scover0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .f32) (x1 : Vec F S1024x1024 .f32) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1024x1024.size (by sl_kernel_rfl) y
/-- The accumulator after the last step. -/
def sout0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .f32) (x1 : Vec F S1024x1024 .f32) (x2 : Vec F S1x1024 .f32) (xs0 : Vec F S1024x1024 .f32) : Vec F S1024x1024 .f32 :=
  VS0.read (Elt F) (VS0.writes (Elt F) VS0.junk (kernelRun0_C c i arg3 harg3 arg4 harg4 arg5 harg5 arg6 harg6 arg7 harg7 hc0 hc1 x0 x1 x2 xs0).2.1)

/-- Contents nothing reads: the output block's entry at the points that do not store it. -/
def noOut0 : Vec F S1024x1024 .bf16 := VO0.read (Elt F) VO0.junk

section Region
variable (V : (c : Dev nD) → (b : Ref sig .tc) → Buf (Elt F) ((c : Thread nD τ).loc b))

/-! ## Point by point -/

/-- THE ACCUMULATION: the output block and the accumulator after the body at linear point `n` = 4·(16·i + j) + k. -/
def outsAt0 (c : Dev nD) : (n : ℕ) → n < cfg0.N → Vec F S1024x1024 .bf16 × Vec F S1024x1024 .f32
  | 0, hn => (noOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      (noOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => (fun h1 => by have h1' : (n + 1) % 4 = 3 := h1; omega) ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (noOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a first step. -/
theorem outsAt0_A (c : Dev nD) (t : Fin cfg0.N) (h0 : t.val % 4 = 0) :
    outsAt0 V c t.val t.isLt = (noOut0, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => (fun h1 => by omega) ((hcond0_1 t).mp h)) (iblk0 V c 0 t) (iblk0 V c 1 t) (iblk0 V c 2 t)) := by
  obtain ⟨n, hn⟩ := t
  cases n with
  | zero => exact rfl
  | succ n => exact (dif_pos h0).trans rfl

/-- At a middle step: over what the point before left. -/
theorem outsAt0_B (c : Dev nD) (t : Fin cfg0.N) (h0 : ¬t.val % 4 = 0) (h1 : ¬t.val % 4 = 3) :
    outsAt0 V c t.val t.isLt = (noOut0, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: over what the point before left. -/
theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point every scoped buffer is at anything; after point `n` the accumulator holds that point's
    contents, the other scoped buffers and the generator register are at anything. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ otherScoped0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ otherScoped0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ otherScoped0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the inputs' buffers hold their blocks; the point's k selects the case; the invariant
    hands the body the accumulator (at anything before the first point, else at what the point before left) and
    takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 256 := lt_of_lt_of_eq t.isLt (show cfg0.N = 256 from N_0)
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [outsAt0_A V c t h0]
    unfold sout0_A; (try dsimp only)
    by_cases hz : t.val = 0
    · rw [PhiS0_castSucc V c t, PhiS0_zero V c _ _ hz]
      iintro ⟨HP, Ho, ⟨%d0, H0⟩, ⟨%d1, H1⟩, ⟨%d2, H2⟩, ⟨%d3, H3⟩⟩
      ihave HP' := (PhiA0_split (F := F) c) $$ HP
      icases HP' with ⟨⟨HS0, Hoth⟩, Hg⟩
      iapply ((kernelRun0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover0_A _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover0_A _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover0_C _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C _ _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover0_B _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped rest back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl, PhiS0_pos V c _ _ ht]
  iintro ⟨⟨HS0, Hoth⟩, Hg⟩
  iapply (PhiA0_join (F := F) c)
  isplitl [HS0 Hoth]
  · isplitl [HS0]
    · iexists _; iexact HS0
    iexact Hoth
  iexact Hg

end Region

end Cert.Kernel.Frame

end
-- ==== Proof.BitsGemm2Scoped.lean ====
/-
  The second GEMM's accumulator among the core's scoped buffers: the scoped buffers that are no staging buffer of the
  second call are the first call's staging buffers and accumulator and, last, this call's accumulator; the class
  invariant (all of them at anything, the generator register at some state) splits into the accumulator owned as a
  whole memref and the rest, and joins back.
-/
import proofs.«110432_j50285477101612_1_alg».proof.Proof.Gen.Kernel.Launch
import Idealize.ShloMosaic.Lib.Pipeline.FrameBody
import Idealize.ShloMosaic.Lib.Pipeline.FrameSuffix
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator: a whole scoped buffer of the kernel's own. -/
abbrev scM1 : Memref sig .tc .vmem S1024x1024 .f32 := Memref.whole cc1_scratch0

/-- The first call's scoped buffers, each at anything. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

theorem PhiA1_split (c : Dev nD) :
    (Pipeline.ΦA spec1 c : sProp 𝕄)
      ⊢ iprop(iprop((∃ d, owns (c : Thread nD τ) scM1 fullShare d) ∗ otherScoped1 c) ∗ (∃ r, prngReg c r)) := by
  unfold Pipeline.ΦA otherScoped1; rw [scopedRest1_eq]; simp only [scM1, owns_whole]
  iintro ⟨⟨H0, H1, H2, H3, H4, H5, H6, H7, H8, HS⟩, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

theorem PhiA1_join (c : Dev nD) :
    iprop(iprop((∃ d, owns (c : Thread nD τ) scM1 fullShare d) ∗ otherScoped1 c) ∗ (∃ r, prngReg c r))
      ⊢ (Pipeline.ΦA spec1 c : sProp 𝕄) := by
  unfold Pipeline.ΦA otherScoped1; rw [scopedRest1_eq]; simp only [scM1, owns_whole]
  iintro ⟨⟨HS, H0, H1, H2, H3, H4, H5, H6, H7, H8⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

end Cert.Kernel.Frame

end
-- ==== Proof.BitsGemm2Cases.lean ====
/-
  The first GEMM's kernel body (x-block · w-block accumulated into a VMEM scratch over the reduction axis k of the
  grid (i, j, k), the accumulator zeroed at k = 0, and at k = 3 the bias added, the tanh form of GELU applied and the
  block stored): what is shared by the three control cases of its two `scf.if`s.
  Case A (k = 0): zero the scratch, then accumulate; the output block is not touched.
  Case B (k = 1, 2): accumulate only; the output block is not touched.
  Case C (k = 3): accumulate, then read the scratch back, add the bias row, apply GELU, store the output block.
-/
import proofs.«110432_j50285477101612_1_alg».proof.Proof.BitsGemm2Scoped
import proofs.«110432_j50285477101612_1_alg».proof.Proof.Gen.Kernel.Skeleton
import proofs.«110432_j50285477101612_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, over the grid -/

/-- `k = 0`, as the body computes it from the grid coordinates. -/
abbrev cond1_0 (i : grid1.Coords) : Prop := (Scalar.cmpi .ne (Scalar.extui (Scalar.cmpi .eq (BitVec.ofNat 32 (i 2).val) 0#32)) 0#32) = 1#1
/-- It holds at the linear points ≡ 0 (mod 16): k is the fastest axis of the grid, of extent 4. -/
theorem hcond1_0 : ∀ t : Fin cfg1.N, cond1_0 (grid1.coords t) ↔ t.val % 16 = 0 :=
  (by decide +kernel : ∀ t : Fin grid1.N, cond1_0 (grid1.coords t) ↔ t.val % 16 = 0)

/-- `k = 3`, the last step of the reduction. -/
abbrev cond1_1 (i : grid1.Coords) : Prop := k1_cond2 i = 1#1
/-- It holds at the linear points ≡ 3 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 3 the body stores nothing into the output block, -/
theorem idleAt1_3 : ∀ t : Fin cfg1.N, ¬cond1_1 (grid1.coords t) → cfg1.idle 3 (grid1.coords t) = true := by decide +kernel
/-- and the pipeline does not write it back there. -/
theorem noFlush1_3 : ∀ t : Fin cfg1.N, ¬cond1_1 (grid1.coords t) → (cfg1.win 3).flush t = false := by decide +kernel
/-- At k = 3 it is stored. -/
theorem liveAt1_3 : ∀ t : Fin cfg1.N, cond1_1 (grid1.coords t) → cfg1.idle 3 (grid1.coords t) = false := by decide +kernel

/-! ## The memrefs the pipeline calls the body with -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- One staging buffer of the output window, and the accumulator, as views: contents are stated through them. -/
abbrev VO1 : View sig .tc .vmem S1024x1024 .f32 := (Memref.whole cc1_stg3_0 : Memref sig .tc .vmem S1024x1024 .f32).view
abbrev VS1 : View sig .tc .vmem S1024x1024 .f32 := scM1.view

end Cert.Kernel.Frame

end
-- ==== Proof.BitsGemm2RunB.lean ====
/-
  The first GEMM's body at a middle step of the reduction (k = 1, 2): the scratch holds the partial sum the step before left; one product of the x-block and the w-block is added to it; the output block is handed back untouched.
-/
import proofs.«110432_j50285477101612_1_alg».proof.Proof.BitsGemm2Cases

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at a middle step, with the body's triple: inputs at their contents and back,
    the output block at `xi3` and back untouched, the accumulator from `xs0` to its pieces written. -/
noncomputable def kernelRun1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1x1024 .f32) (xs0 : Vec F S1024x1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__gemm2_kernel i arg3 harg3 arg4 harg4 arg5 harg5 arg6 harg6 arg7 harg7) K } := by
  refine ⟨?_, fun xi3 E K => ?run⟩
  case run =>
    simp only [cc1__gemm2_kernel_eq_skeleton]; unfold cc1__gemm2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frame

end
-- ==== Proof.BitsGemm2RunA.lean ====
/-
  The first GEMM's body at the first step of the reduction (k = 0): the scratch, whatever it held, is zeroed, and the product of the x-block and the w-block is added to it; the output block is handed back untouched.
-/
import proofs.«110432_j50285477101612_1_alg».proof.Proof.BitsGemm2RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at the first step (the zero store, then the sum), with the body's triple. -/
noncomputable def kernelRun1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1x1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__gemm2_kernel i arg3 harg3 arg4 harg4 arg5 harg5 arg6 harg6 arg7 harg7) K } := by
  refine ⟨?_, fun xi3 E K => ?run⟩
  case run =>
    simp only [cc1__gemm2_kernel_eq_skeleton]; unfold cc1__gemm2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frame

end
-- ==== Proof.BitsGemm2RunC.lean ====
/-
  The first GEMM's body at the last step of the reduction (k = 3): the last product is added to the scratch, the sum is read back, the bias row is added to every row, the tanh form of GELU is applied elementwise and the block is stored into the output window's buffer.
-/
import proofs.«110432_j50285477101612_1_alg».proof.Proof.BitsGemm2RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output block and the accumulator end with at the last step, with the body's triple: the output
    block from anything to its pieces written. -/
noncomputable def kernelRun1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__gemm2_kernel i arg3 harg3 arg4 harg4 arg5 harg5 arg6 harg6 arg7 harg7) K } := by
  refine ⟨?_, ?_, fun E K => ?run⟩
  case run =>
    simp only [cc1__gemm2_kernel_eq_skeleton]; unfold cc1__gemm2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Frame

end
-- ==== Proof.BitsGemm2Data.lean ====
/-
  The first GEMM's region, at the contents V its arrays hold when it is entered: each window's block at a grid point; what the accumulator and the output block hold after each point (a recursion on the linear point: at k = 0 the accumulator restarts from zero, at k = 1..3 it continues from what the point before left, at k = 3 the output block is GELU of the finished sum plus the bias row); the region's invariant (after a point, the accumulator at that point's contents; the other scoped buffers and the generator register at anything); the pipeline's proof data; and the body obligation at every point, by the three case runs.
-/
import proofs.«110432_j50285477101612_1_alg».proof.Proof.BitsGemm2RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the bias row is
    fetched only when the column block changes; between fetches its block index does not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region

/-! ## What each case leaves in the accumulator and in the output block -/

theorem scover1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .bf16) (x1 : Vec F S1024x1024 .f32) (x2 : Vec F S1x1024 .f32) (y : S1024x1024.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S1024x1024.size (by sl_kernel_rfl) y
/-- The accumulator after a first step (k = 0): its pieces read back. -/
def sout1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .bf16) (x1 : Vec F S1024x1024 .f32) (x2 : Vec F S1x1024 .f32) : Vec F S1024x1024 .f32 :=
  VS1.read (Elt F) (VS1.writes (Elt F) VS1.junk (kernelRun1_A c i arg3 harg3 arg4 harg4 arg5 harg5 arg6 harg6 arg7 harg7 hc0 hc1 x0 x1 x2).1)

theorem scover1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .bf16) (x1 : Vec F S1024x1024 .f32) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x1024.size (by sl_kernel_rfl) y
/-- The accumulator after a middle step (k = 1, 2), from what the step before left. -/
def sout1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .bf16) (x1 : Vec F S1024x1024 .f32) (x2 : Vec F S1x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs0).1)

theorem cover1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .f32) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y
/-- The output block after the last step (k = 3). -/
def out1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .f32) (x2 : Vec F S1x1024 .f32) (xs0 : Vec F S1024x1024 .f32) : Vec F S1024x1024 .f32 :=
  VO1.read (Elt F) (VO1.writes (Elt F) VO1.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .f32) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y
/-- The accumulator after the last step. -/
def sout1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .f32) (x2 : Vec F S1x1024 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs0).2.1)

/-- Contents nothing reads: the output block's entry at the points that do not store it. -/
def noOut1 : Vec F S1024x1024 .f32 := VO1.read (Elt F) VO1.junk

section Region
variable (V : (c : Dev nD) → (b : Ref sig .tc) → Buf (Elt F) ((c : Thread nD τ).loc b))

/-! ## Point by point -/

/-- THE ACCUMULATION: the output block and the accumulator after the body at linear point `n` = 4·(16·i + j) + k. -/
def outsAt1 (c : Dev nD) : (n : ℕ) → n < cfg1.N → Vec F S1024x1024 .f32 × Vec F S1024x1024 .f32
  | 0, hn => (noOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      (noOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h1 => by have h1' : (n + 1) % 16 = 15 := h1; omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (noOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a first step. -/
theorem outsAt1_A (c : Dev nD) (t : Fin cfg1.N) (h0 : t.val % 16 = 0) :
    outsAt1 V c t.val t.isLt = (noOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => (fun h1 => by omega) ((hcond1_1 t).mp h)) (iblk1 V c 0 t) (iblk1 V c 1 t) (iblk1 V c 2 t)) := by
  obtain ⟨n, hn⟩ := t
  cases n with
  | zero => exact rfl
  | succ n => exact (dif_pos h0).trans rfl

/-- At a middle step: over what the point before left. -/
theorem outsAt1_B (c : Dev nD) (t : Fin cfg1.N) (h0 : ¬t.val % 16 = 0) (h1 : ¬t.val % 16 = 15) :
    outsAt1 V c t.val t.isLt = (noOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: over what the point before left. -/
theorem outsAt1_C (c : Dev nD) (t : Fin cfg1.N) (h0 : ¬t.val % 16 = 0) (h1 : t.val % 16 = 15) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point every scoped buffer is at anything; after point `n` the accumulator holds that point's
    contents, the other scoped buffers and the generator register are at anything. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ otherScoped1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ otherScoped1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ otherScoped1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' buffers hold their blocks; the point's k selects the case; the invariant
    hands the body the accumulator (at anything before the first point, else at what the point before left) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 256 := lt_of_lt_of_eq t.isLt (show cfg1.N = 256 from N_1)
  by_cases h0 : t.val % 16 = 0
  · have h1 : ¬t.val % 16 = 15 := by omega
    rw [Dat.leavesExact_idle (dat1 V c) 3 t (idleAt1_3 t (fun h => h1 ((hcond1_1 t).mp h))) (noFlush1_3 t (fun h => h1 ((hcond1_1 t).mp h)))]
    rw [outsAt1_A V c t h0]
    unfold sout1_A; (try dsimp only)
    by_cases hz : t.val = 0
    · rw [PhiS1_castSucc V c t, PhiS1_zero V c _ _ hz]
      iintro ⟨HP, Ho, ⟨%d0, H0⟩, ⟨%d1, H1⟩, ⟨%d2, H2⟩, ⟨%d3, H3⟩⟩
      ihave HP' := (PhiA1_split (F := F) c) $$ HP
      icases HP' with ⟨⟨HS0, Hoth⟩, Hg⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_A _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_A _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_C _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_B _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht]
  iintro ⟨⟨HS0, Hoth⟩, Hg⟩
  iapply (PhiA1_join (F := F) c)
  isplitl [HS0 Hoth]
  · isplitl [HS0]
    · iexists _; iexact HS0
    iexact Hoth
  iexact Hg

end Region

end Cert.Kernel.Frame

end
-- ==== Proof.BitsMainRun.lean ====
/-
  The whole run of @main: three reshapes on the host, the first GEMM's region, the second GEMM's region, one reshape.
  The contents of every unscoped buffer at each of the five boundaries are a fold from the launch memory: a host
  stretch applies its operations; a region leaves its arrays at what its write-backs make of them and every other
  buffer as entered. The run ends with every unscoped buffer at the last boundary's contents; the five argument
  arrays are written by no operation and by no region, so they read back as launched.
-/
import proofs.«110432_j50285477101612_1_alg».proof.Proof.BitsGemm1Data
import proofs.«110432_j50285477101612_1_alg».proof.Proof.BitsGemm2Data
import proofs.«110432_j50285477101612_1_alg».proof.Proof.Gen.Kernel.Regions
import Idealize.ShloMosaic.Lib.Pipeline.RegionsLoop
import Idealize.ShloMosaic.Lib.Pipeline.FrameSuffix

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- At launch. -/
abbrev bnd0 : Dev nD → Valuation τ sig (Elt F) := fun c b => (s₀ m ρ).mem ((c : Dev nD), b)
/-- After the three reshapes: where the first region is entered. -/
abbrev bnd1 : Dev nD → Valuation τ sig (Elt F) := fun c => StableHlo.after hostOps0 (bnd0 m ρ c)
abbrev ent0 : (c : Dev nD) → (b : Ref sig .tc) → Buf (Elt F) ((c : Thread nD τ).loc b) := fun c b => bnd1 m ρ c b
/-- At the first region's exit, which is the second region's entry. -/
def bnd2 (c : Dev nD) : Valuation τ sig (Elt F) :=
  Pipeline.withArrays spec0 c (bnd1 m ρ c) fun w => (dat0 (ent0 m ρ) c).arrAt w cfg0.N
theorem bnd2_arr (c : Dev nD) (w : Fin cfg0.W) :
    bnd2 m ρ c (Proc.devRef .tc (Pipeline.arrRef spec0 w)) = (dat0 (ent0 m ρ) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m ρ c (Proc.devRef .tc b) = bnd1 m ρ c (Proc.devRef .tc b) := by
  unfold bnd2; exact Pipeline.withArrays_of_ne spec0 c _ _ b hb
abbrev ent1 : (c : Dev nD) → (b : Ref sig .tc) → Buf (Elt F) ((c : Thread nD τ).loc b) := fun c b => bnd2 m ρ c b
theorem hF0 (c : Dev nD) (w : Fin cfg0.W) : (dat0 (ent0 m ρ) c).arrAt w cfg0.N = ent1 m ρ c (Pipeline.arrRef spec0 w) :=
  (bnd2_arr m ρ c w).symm
theorem hrest0 (c : Dev nD) : ∀ b, b ∉ Finset.univ.image (Pipeline.arrRef spec0) → ent1 m ρ c b = ent0 m ρ c b :=
  fun b hb => bnd2_of_ne m ρ c b fun w e => hb (Finset.mem_image.mpr ⟨w, Finset.mem_univ _, e⟩)
/-- At the second region's exit. -/
def bnd3 (c : Dev nD) : Valuation τ sig (Elt F) :=
  Pipeline.withArrays spec1 c (bnd2 m ρ c) fun w => (dat1 (ent1 m ρ) c).arrAt w cfg1.N
theorem bnd3_arr (c : Dev nD) (w : Fin cfg1.W) :
    bnd3 m ρ c (Proc.devRef .tc (Pipeline.arrRef spec1 w)) = (dat1 (ent1 m ρ) c).arrAt w cfg1.N := by
  unfold bnd3; exact Pipeline.withArrays_arr spec1 launch1.win.arr_inj c _ _ w
theorem bnd3_of_ne (c : Dev nD) (b : Ref sig .tc) (hb : ∀ w, Pipeline.arrRef spec1 w ≠ b) :
    bnd3 m ρ c (Proc.devRef .tc b) = bnd2 m ρ c (Proc.devRef .tc b) := by
  unfold bnd3; exact Pipeline.withArrays_of_ne spec1 c _ _ b hb
abbrev ext1 : (c : Dev nD) → (b : Ref sig .tc) → Buf (Elt F) ((c : Thread nD τ).loc b) := fun c b => bnd3 m ρ c b
theorem hF1 (c : Dev nD) (w : Fin cfg1.W) : (dat1 (ent1 m ρ) c).arrAt w cfg1.N = ext1 m ρ c (Pipeline.arrRef spec1 w) :=
  (bnd3_arr m ρ c w).symm
theorem hrest1 (c : Dev nD) : ∀ b, b ∉ Finset.univ.image (Pipeline.arrRef spec1) → ext1 m ρ c b = ent1 m ρ c b :=
  fun b hb => bnd3_of_ne m ρ c b fun w e => hb (Finset.mem_image.mpr ⟨w, Finset.mem_univ _, e⟩)
/-- After the last reshape: at the return. -/
abbrev bnd4 : Dev nD → Valuation τ sig (Elt F) := fun c => StableHlo.after hostOps2 (bnd3 m ρ c)

/-! ## The arguments end as launched -/

theorem bnd4_main_arg0 (c : Dev nD) : bnd4 m ρ c (Proc.devRef .tc main_arg0) = m ((c : Thread nD τ).loc main_arg0) :=
  calc bnd4 m ρ c (Proc.devRef .tc main_arg0)
    _ = bnd3 m ρ c (Proc.devRef .tc main_arg0) := StableHlo.after_of_writes_sub hostOps2 _ hostOps2_writes (by decide : main_arg0 ∉ hostOps2_W)
    _ = bnd2 m ρ c (Proc.devRef .tc main_arg0) := bnd3_of_ne m ρ c main_arg0 (by decide)
    _ = bnd1 m ρ c (Proc.devRef .tc main_arg0) := bnd2_of_ne m ρ c main_arg0 (by decide)
    _ = bnd0 m ρ c (Proc.devRef .tc main_arg0) := StableHlo.after_of_writes_sub hostOps0 _ hostOps0_writes (by decide : main_arg0 ∉ hostOps0_W)
    _ = m ((c : Thread nD τ).loc main_arg0) := rfl

theorem bnd4_main_arg1 (c : Dev nD) : bnd4 m ρ c (Proc.devRef .tc main_arg1) = m ((c : Thread nD τ).loc main_arg1) :=
  calc bnd4 m ρ c (Proc.devRef .tc main_arg1)
    _ = bnd3 m ρ c (Proc.devRef .tc main_arg1) := StableHlo.after_of_writes_sub hostOps2 _ hostOps2_writes (by decide : main_arg1 ∉ hostOps2_W)
    _ = bnd2 m ρ c (Proc.devRef .tc main_arg1) := bnd3_of_ne m ρ c main_arg1 (by decide)
    _ = bnd1 m ρ c (Proc.devRef .tc main_arg1) := (bnd2_arr m ρ c 1).trans (((dat0 (ent0 m ρ) c).arrAt_in 1 rfl _).trans (A_eq0 (ent0 m ρ) c 1))
    _ = bnd0 m ρ c (Proc.devRef .tc main_arg1) := StableHlo.after_of_writes_sub hostOps0 _ hostOps0_writes (by decide : main_arg1 ∉ hostOps0_W)
    _ = m ((c : Thread nD τ).loc main_arg1) := rfl

theorem bnd4_main_arg2 (c : Dev nD) : bnd4 m ρ c (Proc.devRef .tc main_arg2) = m ((c : Thread nD τ).loc main_arg2) :=
  calc bnd4 m ρ c (Proc.devRef .tc main_arg2)
    _ = bnd3 m ρ c (Proc.devRef .tc main_arg2) := StableHlo.after_of_writes_sub hostOps2 _ hostOps2_writes (by decide : main_arg2 ∉ hostOps2_W)
    _ = bnd2 m ρ c (Proc.devRef .tc main_arg2) := bnd3_of_ne m ρ c main_arg2 (by decide)
    _ = bnd1 m ρ c (Proc.devRef .tc main_arg2) := bnd2_of_ne m ρ c main_arg2 (by decide)
    _ = bnd0 m ρ c (Proc.devRef .tc main_arg2) := StableHlo.after_of_writes_sub hostOps0 _ hostOps0_writes (by decide : main_arg2 ∉ hostOps0_W)
    _ = m ((c : Thread nD τ).loc main_arg2) := rfl

theorem bnd4_main_arg3 (c : Dev nD) : bnd4 m ρ c (Proc.devRef .tc main_arg3) = m ((c : Thread nD τ).loc main_arg3) :=
  calc bnd4 m ρ c (Proc.devRef .tc main_arg3)
    _ = bnd3 m ρ c (Proc.devRef .tc main_arg3) := StableHlo.after_of_writes_sub hostOps2 _ hostOps2_writes (by decide : main_arg3 ∉ hostOps2_W)
    _ = bnd2 m ρ c (Proc.devRef .tc main_arg3) := (bnd3_arr m ρ c 1).trans (((dat1 (ent1 m ρ) c).arrAt_in 1 rfl _).trans (A_eq1 (ent1 m ρ) c 1))
    _ = bnd1 m ρ c (Proc.devRef .tc main_arg3) := bnd2_of_ne m ρ c main_arg3 (by decide)
    _ = bnd0 m ρ c (Proc.devRef .tc main_arg3) := StableHlo.after_of_writes_sub hostOps0 _ hostOps0_writes (by decide : main_arg3 ∉ hostOps0_W)
    _ = m ((c : Thread nD τ).loc main_arg3) := rfl

theorem bnd4_main_arg4 (c : Dev nD) : bnd4 m ρ c (Proc.devRef .tc main_arg4) = m ((c : Thread nD τ).loc main_arg4) :=
  calc bnd4 m ρ c (Proc.devRef .tc main_arg4)
    _ = bnd3 m ρ c (Proc.devRef .tc main_arg4) := StableHlo.after_of_writes_sub hostOps2 _ hostOps2_writes (by decide : main_arg4 ∉ hostOps2_W)
    _ = bnd2 m ρ c (Proc.devRef .tc main_arg4) := bnd3_of_ne m ρ c main_arg4 (by decide)
    _ = bnd1 m ρ c (Proc.devRef .tc main_arg4) := bnd2_of_ne m ρ c main_arg4 (by decide)
    _ = bnd0 m ρ c (Proc.devRef .tc main_arg4) := StableHlo.after_of_writes_sub hostOps0 _ hostOps0_writes (by decide : main_arg4 ∉ hostOps0_W)
    _ = m ((c : Thread nD τ).loc main_arg4) := rfl

/-! ## The proof data family and the thread state -/

/-- Both pipelines' proof data, each at its region's entry contents. -/
def pdat : (p : Fin 2) → (c : Dev nD) → Dat τ (Elt F) Unit ℕ (UR sig nD τ) ℕ (Pipeline.pin (pcfgs (F := F)) adm p) c
  | ⟨0, _⟩ => fun c => dat0 (ent0 m ρ) c
  | ⟨1, _⟩ => fun c => dat1 (ent1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (bnd4 m ρ c) ∗ ∃ r, prngReg c r)

/-! ## The regions as segments -/

set_option backward.isDefEq.respectTransparency.types false in
/-- REGION 0 as a segment: entered from every unscoped buffer at the boundary's contents, left at the next
    boundary's. Its arrays are split out of the unscoped buffers and put back at the exit contents; the generator
    register goes into the invariant and comes back; nothing is owed; the kernel has no semaphore of its own. -/
def reg0 : Pipeline.RegionSeg (pcfgs (F := F)) adm (pdat m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m ρ) c).loose
  hwaits := Pipeline.hwaits_of_owed_zero _ _ _ _ L lv 0 fun _ _ => rfl
  pre c := iprop(StableHlo.held (c : Thread nD τ) (Pipeline.ucRefs τ sig) (bnd1 m ρ c) ∗ R c)
  post c := iprop(StableHlo.held (c : Thread nD τ) (Pipeline.ucRefs τ sig) (bnd2 m ρ c) ∗ R c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) adm (pdat m ρ) launch0.win launch0.arr_whole c
      ((pdat m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = (dat0 (ent0 m ρ) c).Φ 0 from rfl]
    refine .trans ?_ (hin0 (ent0 m ρ) c)
    unfold Pipeline.ΦA
    iintro ⟨Hp, -, Hr⟩
    isplitl [Hr]; · iexact Hr
    iexact Hp
  hout c := by
    rw [Pipeline.ownSems0_none, show (pdat m ρ 0 c).Φ (Fin.last _) = (dat0 (ent0 m ρ) c).Φ (Fin.last cfg0.N) from rfl]
    refine (hout0 (ent0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdat m ρ) ((pdat m ρ 0 c).share_full fun _ => rfl)
      (ent0 m ρ c) (fun b => bnd2 m ρ c b) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment: entered from every unscoped buffer at the boundary's contents, left at the next
    boundary's. Its arrays are split out of the unscoped buffers and put back at the exit contents; the generator
    register goes into the invariant and comes back; nothing is owed; the kernel has no semaphore of its own. -/
def reg1 : Pipeline.RegionSeg (pcfgs (F := F)) adm (pdat m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m ρ) c).loose
  hwaits := Pipeline.hwaits_of_owed_zero _ _ _ _ L lv 1 fun _ _ => rfl
  pre c := iprop(StableHlo.held (c : Thread nD τ) (Pipeline.ucRefs τ sig) (bnd2 m ρ c) ∗ R c)
  post c := iprop(StableHlo.held (c : Thread nD τ) (Pipeline.ucRefs τ sig) (bnd3 m ρ c) ∗ R c)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) adm (pdat m ρ) launch1.win launch1.arr_whole c
      ((pdat m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = (dat1 (ent1 m ρ) c).Φ 0 from rfl]
    refine .trans ?_ (hin1 (ent1 m ρ) c)
    unfold Pipeline.ΦA
    iintro ⟨Hp, -, Hr⟩
    isplitl [Hr]; · iexact Hr
    iexact Hp
  hout c := by
    rw [Pipeline.ownSems0_none, show (pdat m ρ 1 c).Φ (Fin.last _) = (dat1 (ent1 m ρ) c).Φ (Fin.last cfg1.N) from rfl]
    refine (hout1 (ent1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat m ρ) ((pdat m ρ 1 c).share_full fun _ => rfl)
      (ent1 m ρ c) (fun b => bnd3 m ρ c b) ((pdat m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdat m ρ) () defs₀ 𝒱₀ L lv) :=
  [ .host (hseg hostOps0 hostOps0_sub hostOps0_fresh (bnd0 m ρ)),
    .region (reg0 m ρ),
    .region (reg1 m ρ),
    .host (hseg hostOps2 hostOps2_sub hostOps2_fresh (bnd3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bnd4 m ρ c b) :=
  Pipeline.θ_run_regions_kit (pcfgs (F := F)) adm (pdat m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (bnd4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (bnd0 m ρ c)
        from Pipeline.unscopedBufs_held c (bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (bnd4 m ρ c) s')
      isplitl [Hh] <;> iassumption)
    (hQ := fun s h c => h c)

/-- THE FRAME: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (bnd4_main_arg0 m ρ c),
     (h c _ (mem_uc main_arg1 (by decide))).trans (bnd4_main_arg1 m ρ c),
     (h c _ (mem_uc main_arg2 (by decide))).trans (bnd4_main_arg2 m ρ c),
     (h c _ (mem_uc main_arg3 (by decide))).trans (bnd4_main_arg3 m ρ c),
     (h c _ (mem_uc main_arg4 (by decide))).trans (bnd4_main_arg4 m ρ c)⟩) (run_all m ρ)

end Cert.Kernel.Frame

end
-- ==== Proof.Gemm1Scoped.lean ====
/-
  The first GEMM's accumulator among the core's scoped buffers: the scoped buffers that are no staging buffer of the
  first call are the accumulator and the second call's staging buffers and accumulator; the class invariant (all of
  them at anything, the generator register at some state) splits into the accumulator owned as a whole memref and the
  rest, and joins back.
-/
import proofs.«110432_j50285477101612_1_alg».proof.Proof.Gen.KernelIdeal.Launch
import Idealize.ShloMosaic.Lib.Pipeline.FrameBody
import Idealize.ShloMosaic.Lib.Pipeline.FrameSuffix
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator: a whole scoped buffer of the kernel's own. -/
abbrev scM0 : Memref sig .tc .vmem S1024x1024 .f32 := Memref.whole cc0_scratch0

/-- The scoped rest of the core and its generator register, with the accumulator split out as a memref owned at some
    contents, and the other scoped buffers (the second call's staging buffers and accumulator) kept as they are. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

theorem PhiA0_split (c : Dev nD) :
    (Pipeline.ΦA spec0 c : sProp 𝕄)
      ⊢ iprop(iprop((∃ d, owns (c : Thread nD τ) scM0 fullShare d) ∗ otherScoped0 c) ∗ (∃ r, prngReg c r)) := by
  unfold Pipeline.ΦA otherScoped0; rw [scopedRest0_eq]; simp only [scM0, owns_whole]
  iintro ⟨⟨HS, H0, H1, H2, H3, H4, H5, H6, H7, H8⟩, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

theorem PhiA0_join (c : Dev nD) :
    iprop(iprop((∃ d, owns (c : Thread nD τ) scM0 fullShare d) ∗ otherScoped0 c) ∗ (∃ r, prngReg c r))
      ⊢ (Pipeline.ΦA spec0 c : sProp 𝕄) := by
  unfold Pipeline.ΦA otherScoped0; rw [scopedRest0_eq]; simp only [scM0, owns_whole]
  iintro ⟨⟨HS, H0, H1, H2, H3, H4, H5, H6, H7, H8⟩, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

end Cert.KernelIdeal.Frame

end
-- ==== Proof.Gemm1Cases.lean ====
/-
  The first GEMM's kernel body (x-block · w-block accumulated into a VMEM scratch over the reduction axis k of the
  grid (i, j, k), the accumulator zeroed at k = 0, and at k = 3 the bias added, the tanh form of GELU applied and the
  block stored): what is shared by the three control cases of its two `scf.if`s.
  Case A (k = 0): zero the scratch, then accumulate; the output block is not touched.
  Case B (k = 1, 2): accumulate only; the output block is not touched.
  Case C (k = 3): accumulate, then read the scratch back, add the bias row, apply GELU, store the output block.
-/
import proofs.«110432_j50285477101612_1_alg».proof.Proof.Gemm1Scoped
import proofs.«110432_j50285477101612_1_alg».proof.Proof.Gen.KernelIdeal.Skeleton
import proofs.«110432_j50285477101612_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, over the grid -/

/-- `k = 0`, as the body computes it from the grid coordinates. -/
abbrev cond0_0 (i : grid0.Coords) : Prop := (Scalar.cmpi .ne (Scalar.extui (Scalar.cmpi .eq (BitVec.ofNat 32 (i 2).val) 0#32)) 0#32) = 1#1
/-- It holds at the linear points ≡ 0 (mod 4): k is the fastest axis of the grid, of extent 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- `k = 3`, the last step of the reduction. -/
abbrev cond0_1 (i : grid0.Coords) : Prop := k0_cond2 i = 1#1
/-- It holds at the linear points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from k = 3 the body stores nothing into the output block, -/
theorem idleAt0_3 : ∀ t : Fin cfg0.N, ¬cond0_1 (grid0.coords t) → cfg0.idle 3 (grid0.coords t) = true := by decide +kernel
/-- and the pipeline does not write it back there. -/
theorem noFlush0_3 : ∀ t : Fin cfg0.N, ¬cond0_1 (grid0.coords t) → (cfg0.win 3).flush t = false := by decide +kernel
/-- At k = 3 it is stored. -/
theorem liveAt0_3 : ∀ t : Fin cfg0.N, cond0_1 (grid0.coords t) → cfg0.idle 3 (grid0.coords t) = false := by decide +kernel

/-! ## The memrefs the pipeline calls the body with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- One staging buffer of the output window, and the accumulator, as views: contents are stated through them. -/
abbrev VO0 : View sig .tc .vmem S1024x1024 .bf16 := (Memref.whole cc0_stg3_0 : Memref sig .tc .vmem S1024x1024 .bf16).view
abbrev VS0 : View sig .tc .vmem S1024x1024 .f32 := scM0.view

end Cert.KernelIdeal.Frame

end
-- ==== Proof.Gemm1RunB.lean ====
/-
  The first GEMM's body at a middle step of the reduction (k = 1, 2): the scratch holds the partial sum the step before left; one product of the x-block and the w-block is added to it; the output block is handed back untouched.
-/
import proofs.«110432_j50285477101612_1_alg».proof.Proof.Gemm1Cases

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at a middle step, with the body's triple: inputs at their contents and back,
    the output block at `xi3` and back untouched, the accumulator from `xs0` to its pieces written. -/
noncomputable def kernelRun0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .f32) (x2 : Vec F S1x1024 .f32) (xs0 : Vec F S1024x1024 .f32) :
    { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__gemm1_kernel i arg3 harg3 arg4 harg4 arg5 harg5 arg6 harg6 arg7 harg7) K } := by
  refine ⟨?_, fun xi3 E K => ?run⟩
  case run =>
    simp only [cc0__gemm1_kernel_eq_skeleton]; unfold cc0__gemm1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frame

end
-- ==== Proof.Gemm1RunA.lean ====
/-
  The first GEMM's body at the first step of the reduction (k = 0): the scratch, whatever it held, is zeroed, and the product of the x-block and the w-block is added to it; the output block is handed back untouched.
-/
import proofs.«110432_j50285477101612_1_alg».proof.Proof.Gemm1RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at the first step (the zero store, then the sum), with the body's triple. -/
noncomputable def kernelRun0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .f32) (x2 : Vec F S1x1024 .f32) :
    { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__gemm1_kernel i arg3 harg3 arg4 harg4 arg5 harg5 arg6 harg6 arg7 harg7) K } := by
  refine ⟨?_, fun xi3 E K => ?run⟩
  case run =>
    simp only [cc0__gemm1_kernel_eq_skeleton]; unfold cc0__gemm1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frame

end
-- ==== Proof.Gemm1RunC.lean ====
/-
  The first GEMM's body at the last step of the reduction (k = 3): the last product is added to the scratch, the sum is read back, the bias row is added to every row, the tanh form of GELU is applied elementwise and the block is stored into the output window's buffer.
-/
import proofs.«110432_j50285477101612_1_alg».proof.Proof.Gemm1RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output block and the accumulator end with at the last step, with the body's triple: the output
    block from anything to its pieces written. -/
noncomputable def kernelRun0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .f32) (x2 : Vec F S1x1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__gemm1_kernel i arg3 harg3 arg4 harg4 arg5 harg5 arg6 harg6 arg7 harg7) K } := by
  refine ⟨?_, ?_, fun E K => ?run⟩
  case run =>
    simp only [cc0__gemm1_kernel_eq_skeleton]; unfold cc0__gemm1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Frame

end
-- ==== Proof.Gemm1Data.lean ====
/-
  The first GEMM's region, at the contents V its arrays hold when it is entered: each window's block at a grid point; what the accumulator and the output block hold after each point (a recursion on the linear point: at k = 0 the accumulator restarts from zero, at k = 1..3 it continues from what the point before left, at k = 3 the output block is GELU of the finished sum plus the bias row); the region's invariant (after a point, the accumulator at that point's contents; the other scoped buffers and the generator register at anything); the pipeline's proof data; and the body obligation at every point, by the three case runs.
-/
import proofs.«110432_j50285477101612_1_alg».proof.Proof.Gemm1RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (the bias row is
    fetched only when the column block changes; between fetches its block index does not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region

/-! ## What each case leaves in the accumulator and in the output block -/

theorem scover0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i) (x0 : Vec F S1024x1024 .f32) (x1 : Vec F S1024x1024 .f32) (x2 : Vec F S1x1024 .f32) (y : S1024x1024.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S1024x1024.size (by sl_kernel_rfl) y
/-- The accumulator after a first step (k = 0): its pieces read back. -/
def sout0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i) (x0 : Vec F S1024x1024 .f32) (x1 : Vec F S1024x1024 .f32) (x2 : Vec F S1x1024 .f32) : Vec F S1024x1024 .f32 :=
  VS0.read (Elt F) (VS0.writes (Elt F) VS0.junk (kernelRun0_A c i arg3 harg3 arg4 harg4 arg5 harg5 arg6 harg6 arg7 harg7 hc0 hc1 x0 x1 x2).1)

theorem scover0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i) (x0 : Vec F S1024x1024 .f32) (x1 : Vec F S1024x1024 .f32) (x2 : Vec F S1x1024 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).1, y ∈ pc.1.set :=
  View.cover_of_tiledL (kernelRun0_B c i arg3 harg3 arg4 harg4 arg5 harg5 arg6 harg6 arg7 harg7 hc0 hc1 x0 x1 x2 xs0).1 S1024x1024.size (by sl_kernel_rfl) y
/-- The accumulator after a middle step (k = 1, 2), from what the step before left. -/
def sout0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i) (x0 : Vec F S1024x1024 .f32) (x1 : Vec F S1024x1024 .f32) (x2 : Vec F S1x1024 .f32) (xs0 : Vec F S1024x1024 .f32) : Vec F S1024x1024 .f32 :=
  VS0.read (Elt F) (VS0.writes (Elt F) VS0.junk (kernelRun0_B c i arg3 harg3 arg4 harg4 arg5 harg5 arg6 harg6 arg7 harg7 hc0 hc1 x0 x1 x2 xs0).1)

theorem cover0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .f32) (x1 : Vec F S1024x1024 .f32) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1024x1024.size (by sl_kernel_rfl) y
/-- The output block after the last step (k = 3). -/
def out0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .f32) (x1 : Vec F S1024x1024 .f32) (x2 : Vec F S1x1024 .f32) (xs0 : Vec F S1024x1024 .f32) : Vec F S1024x1024 .bf16 :=
  VO0.read (Elt F) (VO0.writes (Elt F) VO0.junk (kernelRun0_C c i arg3 harg3 arg4 harg4 arg5 harg5 arg6 harg6 arg7 harg7 hc0 hc1 x0 x1 x2 xs0).1)
theorem scover0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .f32) (x1 : Vec F S1024x1024 .f32) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1024x1024.size (by sl_kernel_rfl) y
/-- The accumulator after the last step. -/
def sout0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .f32) (x1 : Vec F S1024x1024 .f32) (x2 : Vec F S1x1024 .f32) (xs0 : Vec F S1024x1024 .f32) : Vec F S1024x1024 .f32 :=
  VS0.read (Elt F) (VS0.writes (Elt F) VS0.junk (kernelRun0_C c i arg3 harg3 arg4 harg4 arg5 harg5 arg6 harg6 arg7 harg7 hc0 hc1 x0 x1 x2 xs0).2.1)

/-- Contents nothing reads: the output block's entry at the points that do not store it. -/
def noOut0 : Vec F S1024x1024 .bf16 := VO0.read (Elt F) VO0.junk

section Region
variable (V : (c : Dev nD) → (b : Ref sig .tc) → Buf (Elt F) ((c : Thread nD τ).loc b))

/-! ## Point by point -/

/-- THE ACCUMULATION: the output block and the accumulator after the body at linear point `n` = 4·(16·i + j) + k. -/
def outsAt0 (c : Dev nD) : (n : ℕ) → n < cfg0.N → Vec F S1024x1024 .bf16 × Vec F S1024x1024 .f32
  | 0, hn => (noOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      (noOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => (fun h1 => by have h1' : (n + 1) % 4 = 3 := h1; omega) ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (noOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a first step. -/
theorem outsAt0_A (c : Dev nD) (t : Fin cfg0.N) (h0 : t.val % 4 = 0) :
    outsAt0 V c t.val t.isLt = (noOut0, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => (fun h1 => by omega) ((hcond0_1 t).mp h)) (iblk0 V c 0 t) (iblk0 V c 1 t) (iblk0 V c 2 t)) := by
  obtain ⟨n, hn⟩ := t
  cases n with
  | zero => exact rfl
  | succ n => exact (dif_pos h0).trans rfl

/-- At a middle step: over what the point before left. -/
theorem outsAt0_B (c : Dev nD) (t : Fin cfg0.N) (h0 : ¬t.val % 4 = 0) (h1 : ¬t.val % 4 = 3) :
    outsAt0 V c t.val t.isLt = (noOut0, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: over what the point before left. -/
theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point every scoped buffer is at anything; after point `n` the accumulator holds that point's
    contents, the other scoped buffers and the generator register are at anything. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ otherScoped0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ otherScoped0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ otherScoped0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the inputs' buffers hold their blocks; the point's k selects the case; the invariant
    hands the body the accumulator (at anything before the first point, else at what the point before left) and
    takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 256 := lt_of_lt_of_eq t.isLt (show cfg0.N = 256 from N_0)
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [outsAt0_A V c t h0]
    unfold sout0_A; (try dsimp only)
    by_cases hz : t.val = 0
    · rw [PhiS0_castSucc V c t, PhiS0_zero V c _ _ hz]
      iintro ⟨HP, Ho, ⟨%d0, H0⟩, ⟨%d1, H1⟩, ⟨%d2, H2⟩, ⟨%d3, H3⟩⟩
      ihave HP' := (PhiA0_split (F := F) c) $$ HP
      icases HP' with ⟨⟨HS0, Hoth⟩, Hg⟩
      iapply ((kernelRun0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover0_A _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover0_A _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover0_C _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C _ _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover0_B _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped rest back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl, PhiS0_pos V c _ _ ht]
  iintro ⟨⟨HS0, Hoth⟩, Hg⟩
  iapply (PhiA0_join (F := F) c)
  isplitl [HS0 Hoth]
  · isplitl [HS0]
    · iexists _; iexact HS0
    iexact Hoth
  iexact Hg

end Region

end Cert.KernelIdeal.Frame

end
-- ==== Proof.Gemm2Scoped.lean ====
/-
  The second GEMM's accumulator among the core's scoped buffers: the scoped buffers that are no staging buffer of the
  second call are the first call's staging buffers and accumulator and, last, this call's accumulator; the class
  invariant (all of them at anything, the generator register at some state) splits into the accumulator owned as a
  whole memref and the rest, and joins back.
-/
import proofs.«110432_j50285477101612_1_alg».proof.Proof.Gen.KernelIdeal.Launch
import Idealize.ShloMosaic.Lib.Pipeline.FrameBody
import Idealize.ShloMosaic.Lib.Pipeline.FrameSuffix
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator: a whole scoped buffer of the kernel's own. -/
abbrev scM1 : Memref sig .tc .vmem S1024x1024 .f32 := Memref.whole cc1_scratch0

/-- The first call's scoped buffers, each at anything. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

theorem PhiA1_split (c : Dev nD) :
    (Pipeline.ΦA spec1 c : sProp 𝕄)
      ⊢ iprop(iprop((∃ d, owns (c : Thread nD τ) scM1 fullShare d) ∗ otherScoped1 c) ∗ (∃ r, prngReg c r)) := by
  unfold Pipeline.ΦA otherScoped1; rw [scopedRest1_eq]; simp only [scM1, owns_whole]
  iintro ⟨⟨H0, H1, H2, H3, H4, H5, H6, H7, H8, HS⟩, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

theorem PhiA1_join (c : Dev nD) :
    iprop(iprop((∃ d, owns (c : Thread nD τ) scM1 fullShare d) ∗ otherScoped1 c) ∗ (∃ r, prngReg c r))
      ⊢ (Pipeline.ΦA spec1 c : sProp 𝕄) := by
  unfold Pipeline.ΦA otherScoped1; rw [scopedRest1_eq]; simp only [scM1, owns_whole]
  iintro ⟨⟨HS, H0, H1, H2, H3, H4, H5, H6, H7, H8⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

end Cert.KernelIdeal.Frame

end
-- ==== Proof.Gemm2Cases.lean ====
/-
  The first GEMM's kernel body (x-block · w-block accumulated into a VMEM scratch over the reduction axis k of the
  grid (i, j, k), the accumulator zeroed at k = 0, and at k = 3 the bias added, the tanh form of GELU applied and the
  block stored): what is shared by the three control cases of its two `scf.if`s.
  Case A (k = 0): zero the scratch, then accumulate; the output block is not touched.
  Case B (k = 1, 2): accumulate only; the output block is not touched.
  Case C (k = 3): accumulate, then read the scratch back, add the bias row, apply GELU, store the output block.
-/
import proofs.«110432_j50285477101612_1_alg».proof.Proof.Gemm2Scoped
import proofs.«110432_j50285477101612_1_alg».proof.Proof.Gen.KernelIdeal.Skeleton
import proofs.«110432_j50285477101612_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, over the grid -/

/-- `k = 0`, as the body computes it from the grid coordinates. -/
abbrev cond1_0 (i : grid1.Coords) : Prop := (Scalar.cmpi .ne (Scalar.extui (Scalar.cmpi .eq (BitVec.ofNat 32 (i 2).val) 0#32)) 0#32) = 1#1
/-- It holds at the linear points ≡ 0 (mod 16): k is the fastest axis of the grid, of extent 4. -/
theorem hcond1_0 : ∀ t : Fin cfg1.N, cond1_0 (grid1.coords t) ↔ t.val % 16 = 0 :=
  (by decide +kernel : ∀ t : Fin grid1.N, cond1_0 (grid1.coords t) ↔ t.val % 16 = 0)

/-- `k = 3`, the last step of the reduction. -/
abbrev cond1_1 (i : grid1.Coords) : Prop := k1_cond2 i = 1#1
/-- It holds at the linear points ≡ 3 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 3 the body stores nothing into the output block, -/
theorem idleAt1_3 : ∀ t : Fin cfg1.N, ¬cond1_1 (grid1.coords t) → cfg1.idle 3 (grid1.coords t) = true := by decide +kernel
/-- and the pipeline does not write it back there. -/
theorem noFlush1_3 : ∀ t : Fin cfg1.N, ¬cond1_1 (grid1.coords t) → (cfg1.win 3).flush t = false := by decide +kernel
/-- At k = 3 it is stored. -/
theorem liveAt1_3 : ∀ t : Fin cfg1.N, cond1_1 (grid1.coords t) → cfg1.idle 3 (grid1.coords t) = false := by decide +kernel

/-! ## The memrefs the pipeline calls the body with -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- One staging buffer of the output window, and the accumulator, as views: contents are stated through them. -/
abbrev VO1 : View sig .tc .vmem S1024x1024 .f32 := (Memref.whole cc1_stg3_0 : Memref sig .tc .vmem S1024x1024 .f32).view
abbrev VS1 : View sig .tc .vmem S1024x1024 .f32 := scM1.view

end Cert.KernelIdeal.Frame

end
-- ==== Proof.Gemm2RunB.lean ====
/-
  The first GEMM's body at a middle step of the reduction (k = 1, 2): the scratch holds the partial sum the step before left; one product of the x-block and the w-block is added to it; the output block is handed back untouched.
-/
import proofs.«110432_j50285477101612_1_alg».proof.Proof.Gemm2Cases

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at a middle step, with the body's triple: inputs at their contents and back,
    the output block at `xi3` and back untouched, the accumulator from `xs0` to its pieces written. -/
noncomputable def kernelRun1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1x1024 .f32) (xs0 : Vec F S1024x1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__gemm2_kernel i arg3 harg3 arg4 harg4 arg5 harg5 arg6 harg6 arg7 harg7) K } := by
  refine ⟨?_, fun xi3 E K => ?run⟩
  case run =>
    simp only [cc1__gemm2_kernel_eq_skeleton]; unfold cc1__gemm2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frame

end
-- ==== Proof.Gemm2RunA.lean ====
/-
  The first GEMM's body at the first step of the reduction (k = 0): the scratch, whatever it held, is zeroed, and the product of the x-block and the w-block is added to it; the output block is handed back untouched.
-/
import proofs.«110432_j50285477101612_1_alg».proof.Proof.Gemm2RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at the first step (the zero store, then the sum), with the body's triple. -/
noncomputable def kernelRun1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1x1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__gemm2_kernel i arg3 harg3 arg4 harg4 arg5 harg5 arg6 harg6 arg7 harg7) K } := by
  refine ⟨?_, fun xi3 E K => ?run⟩
  case run =>
    simp only [cc1__gemm2_kernel_eq_skeleton]; unfold cc1__gemm2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frame

end
-- ==== Proof.Gemm2RunC.lean ====
/-
  The first GEMM's body at the last step of the reduction (k = 3): the last product is added to the scratch, the sum is read back, the bias row is added to every row, the tanh form of GELU is applied elementwise and the block is stored into the output window's buffer.
-/
import proofs.«110432_j50285477101612_1_alg».proof.Proof.Gemm2RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output block and the accumulator end with at the last step, with the body's triple: the output
    block from anything to its pieces written. -/
noncomputable def kernelRun1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__gemm2_kernel i arg3 harg3 arg4 harg4 arg5 harg5 arg6 harg6 arg7 harg7) K } := by
  refine ⟨?_, ?_, fun E K => ?run⟩
  case run =>
    simp only [cc1__gemm2_kernel_eq_skeleton]; unfold cc1__gemm2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Frame

end
-- ==== Proof.Gemm2Data.lean ====
/-
  The first GEMM's region, at the contents V its arrays hold when it is entered: each window's block at a grid point; what the accumulator and the output block hold after each point (a recursion on the linear point: at k = 0 the accumulator restarts from zero, at k = 1..3 it continues from what the point before left, at k = 3 the output block is GELU of the finished sum plus the bias row); the region's invariant (after a point, the accumulator at that point's contents; the other scoped buffers and the generator register at anything); the pipeline's proof data; and the body obligation at every point, by the three case runs.
-/
import proofs.«110432_j50285477101612_1_alg».proof.Proof.Gemm2RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the bias row is
    fetched only when the column block changes; between fetches its block index does not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region

/-! ## What each case leaves in the accumulator and in the output block -/

theorem scover1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .bf16) (x1 : Vec F S1024x1024 .f32) (x2 : Vec F S1x1024 .f32) (y : S1024x1024.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S1024x1024.size (by sl_kernel_rfl) y
/-- The accumulator after a first step (k = 0): its pieces read back. -/
def sout1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .bf16) (x1 : Vec F S1024x1024 .f32) (x2 : Vec F S1x1024 .f32) : Vec F S1024x1024 .f32 :=
  VS1.read (Elt F) (VS1.writes (Elt F) VS1.junk (kernelRun1_A c i arg3 harg3 arg4 harg4 arg5 harg5 arg6 harg6 arg7 harg7 hc0 hc1 x0 x1 x2).1)

theorem scover1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .bf16) (x1 : Vec F S1024x1024 .f32) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x1024.size (by sl_kernel_rfl) y
/-- The accumulator after a middle step (k = 1, 2), from what the step before left. -/
def sout1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .bf16) (x1 : Vec F S1024x1024 .f32) (x2 : Vec F S1x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs0).1)

theorem cover1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .f32) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y
/-- The output block after the last step (k = 3). -/
def out1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .f32) (x2 : Vec F S1x1024 .f32) (xs0 : Vec F S1024x1024 .f32) : Vec F S1024x1024 .f32 :=
  VO1.read (Elt F) (VO1.writes (Elt F) VO1.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .f32) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y
/-- The accumulator after the last step. -/
def sout1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .f32) (x2 : Vec F S1x1024 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs0).2.1)

/-- Contents nothing reads: the output block's entry at the points that do not store it. -/
def noOut1 : Vec F S1024x1024 .f32 := VO1.read (Elt F) VO1.junk

section Region
variable (V : (c : Dev nD) → (b : Ref sig .tc) → Buf (Elt F) ((c : Thread nD τ).loc b))

/-! ## Point by point -/

/-- THE ACCUMULATION: the output block and the accumulator after the body at linear point `n` = 4·(16·i + j) + k. -/
def outsAt1 (c : Dev nD) : (n : ℕ) → n < cfg1.N → Vec F S1024x1024 .f32 × Vec F S1024x1024 .f32
  | 0, hn => (noOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      (noOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h1 => by have h1' : (n + 1) % 16 = 15 := h1; omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (noOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a first step. -/
theorem outsAt1_A (c : Dev nD) (t : Fin cfg1.N) (h0 : t.val % 16 = 0) :
    outsAt1 V c t.val t.isLt = (noOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => (fun h1 => by omega) ((hcond1_1 t).mp h)) (iblk1 V c 0 t) (iblk1 V c 1 t) (iblk1 V c 2 t)) := by
  obtain ⟨n, hn⟩ := t
  cases n with
  | zero => exact rfl
  | succ n => exact (dif_pos h0).trans rfl

/-- At a middle step: over what the point before left. -/
theorem outsAt1_B (c : Dev nD) (t : Fin cfg1.N) (h0 : ¬t.val % 16 = 0) (h1 : ¬t.val % 16 = 15) :
    outsAt1 V c t.val t.isLt = (noOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: over what the point before left. -/
theorem outsAt1_C (c : Dev nD) (t : Fin cfg1.N) (h0 : ¬t.val % 16 = 0) (h1 : t.val % 16 = 15) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point every scoped buffer is at anything; after point `n` the accumulator holds that point's
    contents, the other scoped buffers and the generator register are at anything. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ otherScoped1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ otherScoped1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ otherScoped1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' buffers hold their blocks; the point's k selects the case; the invariant
    hands the body the accumulator (at anything before the first point, else at what the point before left) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 256 := lt_of_lt_of_eq t.isLt (show cfg1.N = 256 from N_1)
  by_cases h0 : t.val % 16 = 0
  · have h1 : ¬t.val % 16 = 15 := by omega
    rw [Dat.leavesExact_idle (dat1 V c) 3 t (idleAt1_3 t (fun h => h1 ((hcond1_1 t).mp h))) (noFlush1_3 t (fun h => h1 ((hcond1_1 t).mp h)))]
    rw [outsAt1_A V c t h0]
    unfold sout1_A; (try dsimp only)
    by_cases hz : t.val = 0
    · rw [PhiS1_castSucc V c t, PhiS1_zero V c _ _ hz]
      iintro ⟨HP, Ho, ⟨%d0, H0⟩, ⟨%d1, H1⟩, ⟨%d2, H2⟩, ⟨%d3, H3⟩⟩
      ihave HP' := (PhiA1_split (F := F) c) $$ HP
      icases HP' with ⟨⟨HS0, Hoth⟩, Hg⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_A _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_A _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_C _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_B _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht]
  iintro ⟨⟨HS0, Hoth⟩, Hg⟩
  iapply (PhiA1_join (F := F) c)
  isplitl [HS0 Hoth]
  · isplitl [HS0]
    · iexists _; iexact HS0
    iexact Hoth
  iexact Hg

end Region

end Cert.KernelIdeal.Frame

end
-- ==== Proof.MainRun.lean ====
/-
  The whole run of @main: three reshapes on the host, the first GEMM's region, the second GEMM's region, one reshape.
  The contents of every unscoped buffer at each of the five boundaries are a fold from the launch memory: a host
  stretch applies its operations; a region leaves its arrays at what its write-backs make of them and every other
  buffer as entered. The run ends with every unscoped buffer at the last boundary's contents; the five argument
  arrays are written by no operation and by no region, so they read back as launched.
-/
import proofs.«110432_j50285477101612_1_alg».proof.Proof.Gemm1Data
import proofs.«110432_j50285477101612_1_alg».proof.Proof.Gemm2Data
import proofs.«110432_j50285477101612_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- At launch. -/
abbrev bnd0 : Dev nD → Valuation τ sig (Elt F) := fun c b => (s₀ m ρ).mem ((c : Dev nD), b)
/-- After the three reshapes: where the first region is entered. -/
abbrev bnd1 : Dev nD → Valuation τ sig (Elt F) := fun c => StableHlo.after hostOps0 (bnd0 m ρ c)
abbrev ent0 : (c : Dev nD) → (b : Ref sig .tc) → Buf (Elt F) ((c : Thread nD τ).loc b) := fun c b => bnd1 m ρ c b
/-- At the first region's exit, which is the second region's entry. -/
def bnd2 (c : Dev nD) : Valuation τ sig (Elt F) :=
  Pipeline.withArrays spec0 c (bnd1 m ρ c) fun w => (dat0 (ent0 m ρ) c).arrAt w cfg0.N
theorem bnd2_arr (c : Dev nD) (w : Fin cfg0.W) :
    bnd2 m ρ c (Proc.devRef .tc (Pipeline.arrRef spec0 w)) = (dat0 (ent0 m ρ) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m ρ c (Proc.devRef .tc b) = bnd1 m ρ c (Proc.devRef .tc b) := by
  unfold bnd2; exact Pipeline.withArrays_of_ne spec0 c _ _ b hb
abbrev ent1 : (c : Dev nD) → (b : Ref sig .tc) → Buf (Elt F) ((c : Thread nD τ).loc b) := fun c b => bnd2 m ρ c b
theorem hF0 (c : Dev nD) (w : Fin cfg0.W) : (dat0 (ent0 m ρ) c).arrAt w cfg0.N = ent1 m ρ c (Pipeline.arrRef spec0 w) :=
  (bnd2_arr m ρ c w).symm
theorem hrest0 (c : Dev nD) : ∀ b, b ∉ Finset.univ.image (Pipeline.arrRef spec0) → ent1 m ρ c b = ent0 m ρ c b :=
  fun b hb => bnd2_of_ne m ρ c b fun w e => hb (Finset.mem_image.mpr ⟨w, Finset.mem_univ _, e⟩)
/-- At the second region's exit. -/
def bnd3 (c : Dev nD) : Valuation τ sig (Elt F) :=
  Pipeline.withArrays spec1 c (bnd2 m ρ c) fun w => (dat1 (ent1 m ρ) c).arrAt w cfg1.N
theorem bnd3_arr (c : Dev nD) (w : Fin cfg1.W) :
    bnd3 m ρ c (Proc.devRef .tc (Pipeline.arrRef spec1 w)) = (dat1 (ent1 m ρ) c).arrAt w cfg1.N := by
  unfold bnd3; exact Pipeline.withArrays_arr spec1 launch1.win.arr_inj c _ _ w
theorem bnd3_of_ne (c : Dev nD) (b : Ref sig .tc) (hb : ∀ w, Pipeline.arrRef spec1 w ≠ b) :
    bnd3 m ρ c (Proc.devRef .tc b) = bnd2 m ρ c (Proc.devRef .tc b) := by
  unfold bnd3; exact Pipeline.withArrays_of_ne spec1 c _ _ b hb
abbrev ext1 : (c : Dev nD) → (b : Ref sig .tc) → Buf (Elt F) ((c : Thread nD τ).loc b) := fun c b => bnd3 m ρ c b
theorem hF1 (c : Dev nD) (w : Fin cfg1.W) : (dat1 (ent1 m ρ) c).arrAt w cfg1.N = ext1 m ρ c (Pipeline.arrRef spec1 w) :=
  (bnd3_arr m ρ c w).symm
theorem hrest1 (c : Dev nD) : ∀ b, b ∉ Finset.univ.image (Pipeline.arrRef spec1) → ext1 m ρ c b = ent1 m ρ c b :=
  fun b hb => bnd3_of_ne m ρ c b fun w e => hb (Finset.mem_image.mpr ⟨w, Finset.mem_univ _, e⟩)
/-- After the last reshape: at the return. -/
abbrev bnd4 : Dev nD → Valuation τ sig (Elt F) := fun c => StableHlo.after hostOps2 (bnd3 m ρ c)

/-! ## The arguments end as launched -/

theorem bnd4_main_arg0 (c : Dev nD) : bnd4 m ρ c (Proc.devRef .tc main_arg0) = m ((c : Thread nD τ).loc main_arg0) :=
  calc bnd4 m ρ c (Proc.devRef .tc main_arg0)
    _ = bnd3 m ρ c (Proc.devRef .tc main_arg0) := StableHlo.after_of_writes_sub hostOps2 _ hostOps2_writes (by decide : main_arg0 ∉ hostOps2_W)
    _ = bnd2 m ρ c (Proc.devRef .tc main_arg0) := bnd3_of_ne m ρ c main_arg0 (by decide)
    _ = bnd1 m ρ c (Proc.devRef .tc main_arg0) := bnd2_of_ne m ρ c main_arg0 (by decide)
    _ = bnd0 m ρ c (Proc.devRef .tc main_arg0) := StableHlo.after_of_writes_sub hostOps0 _ hostOps0_writes (by decide : main_arg0 ∉ hostOps0_W)
    _ = m ((c : Thread nD τ).loc main_arg0) := rfl

theorem bnd4_main_arg1 (c : Dev nD) : bnd4 m ρ c (Proc.devRef .tc main_arg1) = m ((c : Thread nD τ).loc main_arg1) :=
  calc bnd4 m ρ c (Proc.devRef .tc main_arg1)
    _ = bnd3 m ρ c (Proc.devRef .tc main_arg1) := StableHlo.after_of_writes_sub hostOps2 _ hostOps2_writes (by decide : main_arg1 ∉ hostOps2_W)
    _ = bnd2 m ρ c (Proc.devRef .tc main_arg1) := bnd3_of_ne m ρ c main_arg1 (by decide)
    _ = bnd1 m ρ c (Proc.devRef .tc main_arg1) := (bnd2_arr m ρ c 1).trans (((dat0 (ent0 m ρ) c).arrAt_in 1 rfl _).trans (A_eq0 (ent0 m ρ) c 1))
    _ = bnd0 m ρ c (Proc.devRef .tc main_arg1) := StableHlo.after_of_writes_sub hostOps0 _ hostOps0_writes (by decide : main_arg1 ∉ hostOps0_W)
    _ = m ((c : Thread nD τ).loc main_arg1) := rfl

theorem bnd4_main_arg2 (c : Dev nD) : bnd4 m ρ c (Proc.devRef .tc main_arg2) = m ((c : Thread nD τ).loc main_arg2) :=
  calc bnd4 m ρ c (Proc.devRef .tc main_arg2)
    _ = bnd3 m ρ c (Proc.devRef .tc main_arg2) := StableHlo.after_of_writes_sub hostOps2 _ hostOps2_writes (by decide : main_arg2 ∉ hostOps2_W)
    _ = bnd2 m ρ c (Proc.devRef .tc main_arg2) := bnd3_of_ne m ρ c main_arg2 (by decide)
    _ = bnd1 m ρ c (Proc.devRef .tc main_arg2) := bnd2_of_ne m ρ c main_arg2 (by decide)
    _ = bnd0 m ρ c (Proc.devRef .tc main_arg2) := StableHlo.after_of_writes_sub hostOps0 _ hostOps0_writes (by decide : main_arg2 ∉ hostOps0_W)
    _ = m ((c : Thread nD τ).loc main_arg2) := rfl

theorem bnd4_main_arg3 (c : Dev nD) : bnd4 m ρ c (Proc.devRef .tc main_arg3) = m ((c : Thread nD τ).loc main_arg3) :=
  calc bnd4 m ρ c (Proc.devRef .tc main_arg3)
    _ = bnd3 m ρ c (Proc.devRef .tc main_arg3) := StableHlo.after_of_writes_sub hostOps2 _ hostOps2_writes (by decide : main_arg3 ∉ hostOps2_W)
    _ = bnd2 m ρ c (Proc.devRef .tc main_arg3) := (bnd3_arr m ρ c 1).trans (((dat1 (ent1 m ρ) c).arrAt_in 1 rfl _).trans (A_eq1 (ent1 m ρ) c 1))
    _ = bnd1 m ρ c (Proc.devRef .tc main_arg3) := bnd2_of_ne m ρ c main_arg3 (by decide)
    _ = bnd0 m ρ c (Proc.devRef .tc main_arg3) := StableHlo.after_of_writes_sub hostOps0 _ hostOps0_writes (by decide : main_arg3 ∉ hostOps0_W)
    _ = m ((c : Thread nD τ).loc main_arg3) := rfl

theorem bnd4_main_arg4 (c : Dev nD) : bnd4 m ρ c (Proc.devRef .tc main_arg4) = m ((c : Thread nD τ).loc main_arg4) :=
  calc bnd4 m ρ c (Proc.devRef .tc main_arg4)
    _ = bnd3 m ρ c (Proc.devRef .tc main_arg4) := StableHlo.after_of_writes_sub hostOps2 _ hostOps2_writes (by decide : main_arg4 ∉ hostOps2_W)
    _ = bnd2 m ρ c (Proc.devRef .tc main_arg4) := bnd3_of_ne m ρ c main_arg4 (by decide)
    _ = bnd1 m ρ c (Proc.devRef .tc main_arg4) := bnd2_of_ne m ρ c main_arg4 (by decide)
    _ = bnd0 m ρ c (Proc.devRef .tc main_arg4) := StableHlo.after_of_writes_sub hostOps0 _ hostOps0_writes (by decide : main_arg4 ∉ hostOps0_W)
    _ = m ((c : Thread nD τ).loc main_arg4) := rfl

/-! ## The proof data family and the thread state -/

/-- Both pipelines' proof data, each at its region's entry contents. -/
def pdat : (p : Fin 2) → (c : Dev nD) → Dat τ (Elt F) Unit ℕ (UR sig nD τ) ℕ (Pipeline.pin (pcfgs (F := F)) adm p) c
  | ⟨0, _⟩ => fun c => dat0 (ent0 m ρ) c
  | ⟨1, _⟩ => fun c => dat1 (ent1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (bnd4 m ρ c) ∗ ∃ r, prngReg c r)

/-! ## The regions as segments -/

set_option backward.isDefEq.respectTransparency.types false in
/-- REGION 0 as a segment: entered from every unscoped buffer at the boundary's contents, left at the next
    boundary's. Its arrays are split out of the unscoped buffers and put back at the exit contents; the generator
    register goes into the invariant and comes back; nothing is owed; the kernel has no semaphore of its own. -/
def reg0 : Pipeline.RegionSeg (pcfgs (F := F)) adm (pdat m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m ρ) c).loose
  hwaits := Pipeline.hwaits_of_owed_zero _ _ _ _ L lv 0 fun _ _ => rfl
  pre c := iprop(StableHlo.held (c : Thread nD τ) (Pipeline.ucRefs τ sig) (bnd1 m ρ c) ∗ R c)
  post c := iprop(StableHlo.held (c : Thread nD τ) (Pipeline.ucRefs τ sig) (bnd2 m ρ c) ∗ R c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) adm (pdat m ρ) launch0.win launch0.arr_whole c
      ((pdat m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = (dat0 (ent0 m ρ) c).Φ 0 from rfl]
    refine .trans ?_ (hin0 (ent0 m ρ) c)
    unfold Pipeline.ΦA
    iintro ⟨Hp, -, Hr⟩
    isplitl [Hr]; · iexact Hr
    iexact Hp
  hout c := by
    rw [Pipeline.ownSems0_none, show (pdat m ρ 0 c).Φ (Fin.last _) = (dat0 (ent0 m ρ) c).Φ (Fin.last cfg0.N) from rfl]
    refine (hout0 (ent0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdat m ρ) ((pdat m ρ 0 c).share_full fun _ => rfl)
      (ent0 m ρ c) (fun b => bnd2 m ρ c b) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment: entered from every unscoped buffer at the boundary's contents, left at the next
    boundary's. Its arrays are split out of the unscoped buffers and put back at the exit contents; the generator
    register goes into the invariant and comes back; nothing is owed; the kernel has no semaphore of its own. -/
def reg1 : Pipeline.RegionSeg (pcfgs (F := F)) adm (pdat m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m ρ) c).loose
  hwaits := Pipeline.hwaits_of_owed_zero _ _ _ _ L lv 1 fun _ _ => rfl
  pre c := iprop(StableHlo.held (c : Thread nD τ) (Pipeline.ucRefs τ sig) (bnd2 m ρ c) ∗ R c)
  post c := iprop(StableHlo.held (c : Thread nD τ) (Pipeline.ucRefs τ sig) (bnd3 m ρ c) ∗ R c)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) adm (pdat m ρ) launch1.win launch1.arr_whole c
      ((pdat m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = (dat1 (ent1 m ρ) c).Φ 0 from rfl]
    refine .trans ?_ (hin1 (ent1 m ρ) c)
    unfold Pipeline.ΦA
    iintro ⟨Hp, -, Hr⟩
    isplitl [Hr]; · iexact Hr
    iexact Hp
  hout c := by
    rw [Pipeline.ownSems0_none, show (pdat m ρ 1 c).Φ (Fin.last _) = (dat1 (ent1 m ρ) c).Φ (Fin.last cfg1.N) from rfl]
    refine (hout1 (ent1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat m ρ) ((pdat m ρ 1 c).share_full fun _ => rfl)
      (ent1 m ρ c) (fun b => bnd3 m ρ c b) ((pdat m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdat m ρ) () defs₀ 𝒱₀ L lv) :=
  [ .host (hseg hostOps0 hostOps0_sub hostOps0_fresh (bnd0 m ρ)),
    .region (reg0 m ρ),
    .region (reg1 m ρ),
    .host (hseg hostOps2 hostOps2_sub hostOps2_fresh (bnd3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bnd4 m ρ c b) :=
  Pipeline.θ_run_regions_kit (pcfgs (F := F)) adm (pdat m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (bnd4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (bnd0 m ρ c)
        from Pipeline.unscopedBufs_held c (bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (bnd4 m ρ c) s')
      isplitl [Hh] <;> iassumption)
    (hQ := fun s h c => h c)

/-- THE FRAME: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (bnd4_main_arg0 m ρ c),
     (h c _ (mem_uc main_arg1 (by decide))).trans (bnd4_main_arg1 m ρ c),
     (h c _ (mem_uc main_arg2 (by decide))).trans (bnd4_main_arg2 m ρ c),
     (h c _ (mem_uc main_arg3 (by decide))).trans (bnd4_main_arg3 m ρ c),
     (h c _ (mem_uc main_arg4 (by decide))).trans (bnd4_main_arg4 m ρ c)⟩) (run_all m ρ)

end Cert.KernelIdeal.Frame

end
-- ==== Proof.Gemm1Pieces.lean ====
/-
  What the first GEMM's three case runs leave, as the kernel's stored values of the blocks: the pieces each run found, read back, are the skeleton's payloads — at k = 0 the accumulator step applied to the zero block, at a later k applied to what the step before left, and at the last k the output block is the epilogue of the finished sum and the bias row.
-/
import proofs.«110432_j50285477101612_1_alg».proof.Proof.Gemm1Data
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block rectangle, however they are spelt. -/
private theorem hz : (![0, 0] : Fin 2 → Nat) = fun _ => 0 := funext fun a => by fin_cases a <;> rfl

theorem sout0_A_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i) (x0 : Vec F S1024x1024 .f32) (x1 : Vec F S1024x1024 .f32) (x2 : Vec F S1x1024 .f32) :
    sout0_A c i arg3 harg3 arg4 harg4 arg5 harg5 arg6 harg6 arg7 harg7 hc0 hc1 x0 x1 x2 = k0_pay2 (k0_pay1 (F := F)) x0 x1 := by
  unfold sout0_A
  rw [View.read_writes_eq_canon _ _ _ (scover0_A c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg7.read_unread, View.ld_unit_zero (S := S1024x1024) hz, View.ld_unit_zero (S := S1x1024) hz, View.readCov_unit_zero (S := S1024x1024) _ hz]

theorem sout0_B_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i) (x0 : Vec F S1024x1024 .f32) (x1 : Vec F S1024x1024 .f32) (x2 : Vec F S1x1024 .f32) (xs0 : Vec F S1024x1024 .f32) :
    sout0_B c i arg3 harg3 arg4 harg4 arg5 harg5 arg6 harg6 arg7 harg7 hc0 hc1 x0 x1 x2 xs0 = k0_pay2 xs0 x0 x1 := by
  unfold sout0_B
  rw [View.read_writes_eq_canon _ _ _ (scover0_B c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg5.read_unread, harg7.read_unread, View.ld_unit_zero (S := S1024x1024) hz, View.ld_unit_zero (S := S1x1024) hz, View.readCov_unit_zero (S := S1024x1024) _ hz]

theorem sout0_C_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .f32) (x1 : Vec F S1024x1024 .f32) (x2 : Vec F S1x1024 .f32) (xs0 : Vec F S1024x1024 .f32) :
    sout0_C c i arg3 harg3 arg4 harg4 arg5 harg5 arg6 harg6 arg7 harg7 hc0 hc1 x0 x1 x2 xs0 = k0_pay2 xs0 x0 x1 := by
  unfold sout0_C
  rw [View.read_writes_eq_canon _ _ _ (scover0_C c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.ld_unit_zero (S := S1024x1024) hz, View.ld_unit_zero (S := S1x1024) hz, View.readCov_unit_zero (S := S1024x1024) _ hz]

theorem out0_C_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .f32) (x1 : Vec F S1024x1024 .f32) (x2 : Vec F S1x1024 .f32) (xs0 : Vec F S1024x1024 .f32) :
    out0_C c i arg3 harg3 arg4 harg4 arg5 harg5 arg6 harg6 arg7 harg7 hc0 hc1 x0 x1 x2 xs0 = k0_pay3 (k0_pay2 xs0 x0 x1) x2 := by
  unfold out0_C
  rw [View.read_writes_eq_canon _ _ _ (cover0_C c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.ld_unit_zero (S := S1024x1024) hz, View.ld_unit_zero (S := S1x1024) hz, View.readCov_unit_zero (S := S1024x1024) _ hz]

end Cert.KernelIdeal.Frame

end
-- ==== Proof.Spec.lean ====
/-
  What both programs compute, on the extended reals: a two-layer perceptron with the tanh form of GELU,
  out = gelu(x · W₁ + b₁) · W₂ + b₂, over 4096 rows. The constants are the four float words both programs print.
-/
import Idealize.ShloMosaic.PureOps.Ideal
import Idealize.ShloMosaic.Lib.ValueIdx

noncomputable section

namespace Cert.Spec

open Idealize.ShloMosaic Idealize.ShloMosaic.ValueIdx

/-- The tanh form of GELU, h · (½ · (1 + tanh(c₂ · (h + c₁ · h³)))), with h³ grouped as h · (h · h). -/
def gelu (h : EReal) : EReal :=
  h * (Ideal.ofBits .f32 0x3F000000#32 * (Ideal.ofBits .f32 0x3F800000#32 + Ideal.tanh (Ideal.ofBits .f32 0x3F4C422A#32 * (h + Ideal.ofBits .f32 0x3D372713#32 * (h * (h * h))))))

/-- The hidden layer at row `r`, feature `f`: GELU of the row's inner product with the feature's column, plus the bias. -/
def hid (x : (⟨2, ![4096, 4096]⟩ : Shape).Idx → EReal) (w1 : (⟨2, ![4096, 16384]⟩ : Shape).Idx → EReal) (b1 : (⟨2, ![1, 16384]⟩ : Shape).Idx → EReal)
    (r : Fin 4096) (f : Fin 16384) : EReal :=
  gelu ((∑ l : Fin 4096, x (ix2 r l) * w1 (ix2 l f)) + b1 (ix2 (0 : Fin 1) f))

/-- The output layer at row `r`, column `q`, from a hidden layer `h`. -/
def outp (h : Fin 4096 → Fin 16384 → EReal) (w2 : (⟨2, ![16384, 4096]⟩ : Shape).Idx → EReal) (b2 : (⟨2, ![1, 4096]⟩ : Shape).Idx → EReal)
    (r : Fin 4096) (q : Fin 4096) : EReal :=
  (∑ f : Fin 16384, h r f * w2 (ix2 f q)) + b2 (ix2 (0 : Fin 1) q)

/-- The activations as 4096 rows: row b·2048 + s is position s of batch b. -/
def flat (x : (⟨3, ![2, 2048, 4096]⟩ : Shape).Idx → EReal) : (⟨2, ![4096, 4096]⟩ : Shape).Idx → EReal :=
  fun j => x (ix3 (⟨(j 0).val / 2048, by have := (j 0).isLt; change (j 0).val < 4096 at this; omega⟩ : Fin 2) (⟨(j 0).val % 2048, Nat.mod_lt _ (by decide)⟩ : Fin 2048) (⟨(j 1).val, (j 1).isLt⟩ : Fin 4096))

/-- A bias vector as one row. -/
def row {n : ℕ} (b : (⟨1, ![n]⟩ : Shape).Idx → EReal) : (⟨2, ![1, n]⟩ : Shape).Idx → EReal :=
  fun j => b (ix1 (⟨(j 1).val, (j 1).isLt⟩ : Fin n))

/-- The whole network at batch `i 0`, position `i 1`, column `i 2`. -/
def mlp (x : (⟨3, ![2, 2048, 4096]⟩ : Shape).Idx → EReal) (w1 : (⟨2, ![4096, 16384]⟩ : Shape).Idx → EReal) (b1 : (⟨1, ![16384]⟩ : Shape).Idx → EReal)
    (w2 : (⟨2, ![16384, 4096]⟩ : Shape).Idx → EReal) (b2 : (⟨1, ![4096]⟩ : Shape).Idx → EReal) : (⟨3, ![2, 2048, 4096]⟩ : Shape).Idx → EReal :=
  fun i => outp (hid (flat x) w1 (row b1)) w2 (row b2)
    (⟨(i 0).val * 2048 + (i 1).val, by have h0 := (i 0).isLt; have h1 := (i 1).isLt; change (i 0).val < 2 at h0; change (i 1).val < 2048 at h1; omega⟩ : Fin 4096)
    (⟨(i 2).val, (i 2).isLt⟩ : Fin 4096)

/-- A sum over n·K terms is the sum over n blocks of the K terms of each block. -/
theorem sum_blocks {M : Type} [AddCommMonoid M] (n K : ℕ) (g : Fin (n * K) → M) :
    ∑ l : Fin (n * K), g l = ∑ k : Fin n, ∑ j : Fin K, g ⟨k.val * K + j.val, by
      calc k.val * K + j.val < k.val * K + K := Nat.add_lt_add_left j.isLt _
        _ = (k.val + 1) * K := by ring
        _ ≤ n * K := Nat.mul_le_mul_right K k.isLt⟩ := by
  -- Re-index the left sum through the bijection Fin n × Fin K ≃ Fin (n * K), (k, j) ↦ j + K · k, then split the
  -- sum over pairs into the double sum; the two spellings of the position agree by commutativity.
  refine (Equiv.sum_comp finProdFinEquiv g).symm.trans ?_
  rw [Fintype.sum_prod_type]
  refine Finset.sum_congr rfl fun k _ => Finset.sum_congr rfl fun j _ => congrArg g (Fin.ext ?_)
  show j.val + K * k.val = k.val * K + j.val
  rw [Nat.mul_comm, Nat.add_comm]

end Cert.Spec

end
-- ==== Proof.Payloads.lean ====
/-
  The two kernels' stored values read at an index, on the extended reals: the zero block; the accumulator step
  (what the scratch held plus one 1024-term inner product of the x-block's row with the w-block's column — the
  bf16 casts are the identity here and the product unit starts from zero); and the two epilogues (bias row added,
  then GELU in the first kernel; bias row added in the second).
-/
import proofs.«110432_j50285477101612_1_alg».proof.Proof.Gen.KernelIdeal.Skeleton
import proofs.«110432_j50285477101612_1_alg».proof.Proof.Spec
import Idealize.ShloMosaic.PureOps.Ideal.Laws
import Idealize.ShloMosaic.Lib.ValueIdx
import Idealize.ShloMosaic.Lib.Pipeline.Value

noncomputable section

namespace Cert.KernelIdeal.Payloads

open Cert.KernelIdeal Cert.KernelIdeal.Gen
open Idealize.ShloMosaic Idealize.ShloMosaic.ValueIdx

/-! ## The 1024 × 1024 block product's operand indices

The product contracts the left operand's axis 1 with the right operand's axis 0: at the output index (p, q) and the
contraction position l the left operand is read at (p, l) and the right one at (l, q). -/

/-- The left operand's row is the output's row. -/
private theorem lhs_dot_0 (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The left operand's column is the contraction position. -/
private theorem lhs_dot_1 (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k
/-- The right operand's row is the contraction position. -/
private theorem rhs_dot_0 (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k
/-- The right operand's column is the output's column. -/
private theorem rhs_dot_1 (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product started from the zero block, read at (p, q): the inner product of the left operand's row p with
    the right operand's column q. -/
private theorem matmul_zero_apply {φ₁ φ₂ : FTy} (a : FVec Ideal S1024x1024 φ₁) (b : FVec Ideal S1024x1024 φ₂) (p q : Fin 1024) :
    FloatOps.matmul dot_S1024x1024_S1024x1024_S1024x1024_1_0_0_1_n_n none a b (constant (F := Ideal) S1024x1024 .f32 0x00000000#32) (ix2 p q)
      = ∑ l : Fin 1024, a (ix2 p l) * b (ix2 l q) := by
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_dot_0 _ _
    | ⟨1, _⟩ => exact (lhs_dot_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_dot_0 _ _).trans hk
    | ⟨1, _⟩ => exact rhs_dot_1 _ _)
  rw [el, er]

/-- The bias row laid along every row of the block, read at (p, q): the bias at column q. -/
private theorem bias_row_apply (b : FVec Ideal S1x1024 .f32) (p q : Fin 1024) :
    broadcastTo S1024x1024 (shapeCast S1x1024 b shapeCasts_S1x1024_S1x1024) broadcasts_S1x1024_S1024x1024 (ix2 p q)
      = b (ix2 (0 : Fin 1) q) := by
  rw [shapeCast_self]
  exact broadcastTo_apply b broadcasts_S1x1024_S1024x1024 (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

/-! ## The first kernel -/

/-- The block the first kernel zeroes its accumulator with is zero everywhere. -/
theorem k0_pay1_apply (p q : Fin 1024) : (k0_pay1 (F := Ideal) : S1024x1024.Idx → EReal) (ix2 p q) = 0 := by
  unfold k0_pay1
  refine (congrFun (shapeCast_self _ shapeCasts_S1024x1024_S1024x1024) (ix2 p q)).trans ?_
  exact Ideal.ofBits_zero_f32

/-- The first kernel's accumulator step at (p, q): what the accumulator held plus the inner product of the x-block's
    row p with the w-block's column q (the casts to bf16 are the identity on extended reals). -/
theorem k0_pay2_apply (s x w : Vec Ideal S1024x1024 .f32) (p q : Fin 1024) :
    (k0_pay2 (F := Ideal) s x w : S1024x1024.Idx → EReal) (ix2 p q)
      = (s (ix2 p q) : EReal) + ∑ l : Fin 1024, (x (ix2 p l) : EReal) * (w (ix2 l q) : EReal) := by
  unfold k0_pay2
  refine (congrFun (shapeCast_self _ shapeCasts_S1024x1024_S1024x1024) (ix2 p q)).trans ?_
  refine congrArg (fun z : EReal => (s (ix2 p q) : EReal) + z) ?_
  refine (matmul_zero_apply (φ₁ := .bf16) (φ₂ := .bf16) _ _ p q).trans ?_
  refine Finset.sum_congr rfl fun l _ => ?_
  exact congrArg (fun z : EReal => z * (w (ix2 l q) : EReal)) (congrFun (shapeCast_self x shapeCasts_S1024x1024_S1024x1024) (ix2 p l))

/-- The first kernel's epilogue at (p, q): GELU of the accumulator plus the bias at column q. -/
theorem k0_pay3_apply (s : Vec Ideal S1024x1024 .f32) (b : Vec Ideal S1x1024 .f32) (p q : Fin 1024) :
    (k0_pay3 (F := Ideal) s b : S1024x1024.Idx → EReal) (ix2 p q)
      = Cert.Spec.gelu ((s (ix2 p q) : EReal) + (b (ix2 (0 : Fin 1) q) : EReal)) := by
  unfold k0_pay3
  exact congrArg (fun z : EReal => Cert.Spec.gelu ((s (ix2 p q) : EReal) + z)) (bias_row_apply b p q)

/-! ## The second kernel -/

/-- The block the second kernel zeroes its accumulator with is zero everywhere. -/
theorem k1_pay1_apply (p q : Fin 1024) : (k1_pay1 (F := Ideal) : S1024x1024.Idx → EReal) (ix2 p q) = 0 := by
  unfold k1_pay1
  refine (congrFun (shapeCast_self _ shapeCasts_S1024x1024_S1024x1024) (ix2 p q)).trans ?_
  exact Ideal.ofBits_zero_f32

/-- The second kernel's accumulator step at (p, q): what the accumulator held plus the inner product of the hidden
    block's row p with the w-block's column q. -/
theorem k1_pay2_apply (s : Vec Ideal S1024x1024 .f32) (x : Vec Ideal S1024x1024 .bf16) (w : Vec Ideal S1024x1024 .f32) (p q : Fin 1024) :
    (k1_pay2 (F := Ideal) s x w : S1024x1024.Idx → EReal) (ix2 p q)
      = (s (ix2 p q) : EReal) + ∑ l : Fin 1024, (x (ix2 p l) : EReal) * (w (ix2 l q) : EReal) := by
  unfold k1_pay2
  refine (congrFun (shapeCast_self _ shapeCasts_S1024x1024_S1024x1024) (ix2 p q)).trans ?_
  refine congrArg (fun z : EReal => (s (ix2 p q) : EReal) + z) ?_
  refine (matmul_zero_apply (φ₁ := .bf16) (φ₂ := .bf16) _ _ p q).trans ?_
  refine Finset.sum_congr rfl fun l _ => ?_
  exact congrArg (fun z : EReal => z * (w (ix2 l q) : EReal)) (congrFun (shapeCast_self x shapeCasts_S1024x1024_S1024x1024) (ix2 p l))

/-- The second kernel's epilogue at (p, q): the accumulator plus the bias at column q. -/
theorem k1_pay3_apply (s : Vec Ideal S1024x1024 .f32) (b : Vec Ideal S1x1024 .f32) (p q : Fin 1024) :
    (k1_pay3 (F := Ideal) s b : S1024x1024.Idx → EReal) (ix2 p q)
      = (s (ix2 p q) : EReal) + (b (ix2 (0 : Fin 1) q) : EReal) := by
  unfold k1_pay3
  exact congrArg (fun z : EReal => (s (ix2 p q) : EReal) + z) (bias_row_apply b p q)

end Cert.KernelIdeal.Payloads

end
-- ==== Proof.Gemm1Value.lean ====
/-
  The first GEMM's result array on the extended reals: after the region's last point the output array holds, at row r and feature f, GELU of the inner product of row r of the x array with column f of the first weight array, plus the bias row's entry f. The accumulator after the point (i, j, k) holds the inner products restricted to the first (k + 1) · 1024 terms, by induction on the point; the block stored at k = 3 is the epilogue of the full sum; the blocks written back tile the array.
-/
import proofs.«110432_j50285477101612_1_alg».proof.Proof.Gemm1Pieces
import proofs.«110432_j50285477101612_1_alg».proof.Proof.Payloads
import proofs.«110432_j50285477101612_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Region
variable (V : (c : Dev nD) → (b : Ref sig .tc) → Buf (Elt Ideal) ((c : Thread nD τ).loc b))

private abbrev g1_xarr (c : Dev nD) : S4096x4096.Idx → EReal := V c main_v0
private abbrev g1_warr (c : Dev nD) : S4096x16384.Idx → EReal := V c main_arg1
private abbrev g1_barr (c : Dev nD) : S1x16384.Idx → EReal := V c main_v1
private abbrev g1_xblk (c : Dev nD) (t : Fin cfg0.N) : Vec Ideal S1024x1024 .f32 := iblk0 V c 0 t
private abbrev g1_wblk (c : Dev nD) (t : Fin cfg0.N) : Vec Ideal S1024x1024 .f32 := iblk0 V c 1 t
private abbrev g1_bblk (c : Dev nD) (t : Fin cfg0.N) : Vec Ideal S1x1024 .f32 := iblk0 V c 2 t

private theorem g1_idx_facts : ∀ t : Fin cfg0.N,
    win0_0.index t (0 : Fin 2) = t.val / 64 ∧ win0_0.index t (1 : Fin 2) = t.val % 4
  ∧ win0_1.index t (0 : Fin 2) = t.val % 4 ∧ win0_1.index t (1 : Fin 2) = t.val / 4 % 16
  ∧ win0_2.index t (0 : Fin 2) = 0 ∧ win0_2.index t (1 : Fin 2) = t.val / 4 % 16
  ∧ win0_3.index t (0 : Fin 2) = t.val / 64 ∧ win0_3.index t (1 : Fin 2) = t.val / 4 % 16 :=
  (by decide +kernel : ∀ t : Fin grid0.N, _)

private theorem g1_xblk_apply (c : Dev nD) (t : Fin cfg0.N) (p l : Fin 1024) (k : S4096x4096.Idx)
    (h0 : (k 0).val = t.val / 64 * 1024 + p.val) (h1 : (k 1).val = t.val % 4 * 1024 + l.val) :
    g1_xblk V c t (ix2 p l) = g1_xarr V c k := by
  obtain ⟨e0, e1, -⟩ := g1_idx_facts t
  unfold g1_xblk iblk0
  rw [View.read_apply]
  show V c main_v0 _ = V c main_v0 k
  congr 1
  funext a
  apply Fin.ext
  match a with
  | ⟨0, _⟩ => show win0_0.index t 0 * 1024 + 1 * p.val = (k 0).val; rw [e0, h0]; omega
  | ⟨1, _⟩ => show win0_0.index t 1 * 1024 + 1 * l.val = (k 1).val; rw [e1, h1]; omega

private theorem g1_wblk_apply (c : Dev nD) (t : Fin cfg0.N) (l q : Fin 1024) (k : S4096x16384.Idx)
    (h0 : (k 0).val = t.val % 4 * 1024 + l.val) (h1 : (k 1).val = t.val / 4 % 16 * 1024 + q.val) :
    g1_wblk V c t (ix2 l q) = g1_warr V c k := by
  obtain ⟨-, -, e2, e3, -⟩ := g1_idx_facts t
  unfold g1_wblk iblk0
  rw [View.read_apply]
  show V c main_arg1 _ = V c main_arg1 k
  congr 1
  funext a
  apply Fin.ext
  match a with
  | ⟨0, _⟩ => show win0_1.index t 0 * 1024 + 1 * l.val = (k 0).val; rw [e2, h0]; omega
  | ⟨1, _⟩ => show win0_1.index t 1 * 1024 + 1 * q.val = (k 1).val; rw [e3, h1]; omega

private theorem g1_bblk_apply (c : Dev nD) (t : Fin cfg0.N) (q : Fin 1024) (k : S1x16384.Idx)
    (h1 : (k 1).val = t.val / 4 % 16 * 1024 + q.val) :
    g1_bblk V c t (ix2 (0 : Fin 1) q) = g1_barr V c k := by
  obtain ⟨-, -, -, -, e4, e5, -⟩ := g1_idx_facts t
  have hk0 : (k 0).val < 1 := idx2_lt0 k
  unfold g1_bblk iblk0
  rw [View.read_apply]
  show V c main_v1 _ = V c main_v1 k
  congr 1
  funext a
  apply Fin.ext
  match a with
  | ⟨0, _⟩ => show win0_2.index t 0 * 1 + 1 * (0 : Fin 1).val = (k 0).val; rw [e4]; show 0 * 1 + 1 * 0 = (k 0).val; omega
  | ⟨1, _⟩ => show win0_2.index t 1 * 1024 + 1 * q.val = (k 1).val; rw [e5, h1]; omega

end Region

/-- Block k' of 1024 terms of the inner product of row r of x with column f of w (zero past the fourth block). -/
private def g1_blockTerm (x : S4096x4096.Idx → EReal) (w : S4096x16384.Idx → EReal) (r : Fin 4096) (f : Fin 16384) (k' : ℕ) : EReal :=
  if h : k' < 4 then ∑ l : Fin 1024, x (ix2 r ⟨k' * 1024 + l.val, by have := l.isLt; omega⟩) * w (ix2 ⟨k' * 1024 + l.val, by have := l.isLt; omega⟩ f) else 0

/-- The four blocks together are the whole inner product. -/
private theorem g1_blockTerm_sum (x : S4096x4096.Idx → EReal) (w : S4096x16384.Idx → EReal) (r : Fin 4096) (f : Fin 16384) :
    ∑ k' ∈ Finset.range 4, g1_blockTerm x w r f k' = ∑ l : Fin 4096, x (ix2 r l) * w (ix2 l f) := by
  rw [Finset.sum_range]
  refine Eq.trans ?_ (Cert.Spec.sum_blocks 4 1024 (fun l : Fin 4096 => x (ix2 r l) * w (ix2 l f))).symm
  refine Finset.sum_congr rfl fun i _ => ?_
  unfold g1_blockTerm
  rw [dif_pos i.isLt]

section Region
variable (V : (c : Dev nD) → (b : Ref sig .tc) → Buf (Elt Ideal) ((c : Thread nD τ).loc b))

/-- One point's 1024 products are the point's block of terms. -/
private theorem g1_block_sum (c : Dev nD) (t : Fin cfg0.N) (p q : Fin 1024) (r : Fin 4096) (f : Fin 16384)
    (hr : r.val = t.val / 64 * 1024 + p.val) (hf : f.val = t.val / 4 % 16 * 1024 + q.val) :
    ∑ l : Fin 1024, g1_xblk V c t (ix2 p l) * g1_wblk V c t (ix2 l q) = g1_blockTerm (g1_xarr V c) (g1_warr V c) r f (t.val % 4) := by
  unfold g1_blockTerm
  rw [dif_pos (Nat.mod_lt _ (by decide))]
  refine Finset.sum_congr rfl fun l _ => ?_
  exact congrArg₂ (· * ·) (g1_xblk_apply V c t p l _ hr rfl) (g1_wblk_apply V c t l q _ rfl hf)

end Region

section Region
variable (V : (c : Dev nD) → (b : Ref sig .tc) → Buf (Elt Ideal) ((c : Thread nD τ).loc b))

/-- THE INVARIANT: after point n = (i, j, k) the accumulator at (p, q) is the inner product of row i·1024 + p of x with
    column j·1024 + q of w restricted to its first k + 1 blocks of 1024 terms. -/
private theorem g1_acc_eq (c : Dev nD) : ∀ (n : ℕ) (hn : n < cfg0.N) (p q : Fin 1024) (r : Fin 4096) (f : Fin 16384),
    r.val = n / 64 * 1024 + p.val → f.val = n / 4 % 16 * 1024 + q.val →
    ((outsAt0 V c n hn).2 : S1024x1024.Idx → EReal) (ix2 p q)
      = ∑ k' ∈ Finset.range (n % 4 + 1), g1_blockTerm (g1_xarr V c) (g1_warr V c) r f k' := by
  intro n
  induction n using Nat.strong_induction_on with
  | _ n ih =>
    intro hn p q r f hr hf
    by_cases h0 : n % 4 = 0
    · rw [outsAt0_A V c ⟨n, hn⟩ h0]
      dsimp only
      refine (congrFun (sout0_A_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0 (Memref.isWhole_whole _) ((hcond0_0 ⟨n, hn⟩).mpr h0) (fun h => (fun h1 => by have h1' : n % 4 = 3 := h1; omega) ((hcond0_1 ⟨n, hn⟩).mp h)) (g1_xblk V c ⟨n, hn⟩) (g1_wblk V c ⟨n, hn⟩) (g1_bblk V c ⟨n, hn⟩)) (ix2 p q)).trans ?_
      refine (Cert.KernelIdeal.Payloads.k0_pay2_apply (k0_pay1 (F := Ideal)) (g1_xblk V c ⟨n, hn⟩) (g1_wblk V c ⟨n, hn⟩) p q).trans ?_
      rw [Cert.KernelIdeal.Payloads.k0_pay1_apply p q, zero_add, g1_block_sum V c ⟨n, hn⟩ p q r f hr hf]
      show g1_blockTerm (g1_xarr V c) (g1_warr V c) r f (n % 4) = _
      rw [h0, Finset.sum_range_one]
    · have hpos : 0 < n := Nat.pos_of_ne_zero fun e => h0 (by rw [e])
      have hih := ih (n - 1) (by omega) (by omega) p q r f (by omega) (by omega)
      have hk : (n - 1) % 4 + 1 = n % 4 := by omega
      by_cases h1 : n % 4 = 3
      · rw [outsAt0_C V c ⟨n, hn⟩ h0 h1]
        dsimp only
        refine (congrFun (sout0_C_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0 (Memref.isWhole_whole _) (fun h => h0 ((hcond0_0 ⟨n, hn⟩).mp h)) ((hcond0_1 ⟨n, hn⟩).mpr h1) (g1_xblk V c ⟨n, hn⟩) (g1_wblk V c ⟨n, hn⟩) (g1_bblk V c ⟨n, hn⟩) (outsAt0 V c (n - 1) (by omega)).2) (ix2 p q)).trans ?_
        refine (Cert.KernelIdeal.Payloads.k0_pay2_apply (outsAt0 V c (n - 1) (by omega)).2 (g1_xblk V c ⟨n, hn⟩) (g1_wblk V c ⟨n, hn⟩) p q).trans ?_
        rw [hih, g1_block_sum V c ⟨n, hn⟩ p q r f hr hf, hk]
        exact (Finset.sum_range_succ _ _).symm
      · rw [outsAt0_B V c ⟨n, hn⟩ h0 h1]
        dsimp only
        refine (congrFun (sout0_B_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0 (Memref.isWhole_whole _) (fun h => h0 ((hcond0_0 ⟨n, hn⟩).mp h)) (fun h => h1 ((hcond0_1 ⟨n, hn⟩).mp h)) (g1_xblk V c ⟨n, hn⟩) (g1_wblk V c ⟨n, hn⟩) (g1_bblk V c ⟨n, hn⟩) (outsAt0 V c (n - 1) (by omega)).2) (ix2 p q)).trans ?_
        refine (Cert.KernelIdeal.Payloads.k0_pay2_apply (outsAt0 V c (n - 1) (by omega)).2 (g1_xblk V c ⟨n, hn⟩) (g1_wblk V c ⟨n, hn⟩) p q).trans ?_
        rw [hih, g1_block_sum V c ⟨n, hn⟩ p q r f hr hf, hk]
        exact (Finset.sum_range_succ _ _).symm

end Region

section Region
variable (V : (c : Dev nD) → (b : Ref sig .tc) → Buf (Elt Ideal) ((c : Thread nD τ).loc b))

/-- THE STORED BLOCK at a last step (k = 3): at (p, q), GELU of the whole inner product of row i·1024 + p of x with column
    j·1024 + q of w, plus the bias row's entry j·1024 + q. -/
private theorem g1_out_apply (c : Dev nD) (t : Fin cfg0.N) (h3 : t.val % 4 = 3) (p q : Fin 1024) (r : Fin 4096) (f : Fin 16384)
    (hr : r.val = t.val / 64 * 1024 + p.val) (hf : f.val = t.val / 4 % 16 * 1024 + q.val) :
    ((outsAt0 V c t.val t.isLt).1 : S1024x1024.Idx → EReal) (ix2 p q)
      = Cert.Spec.hid (g1_xarr V c) (g1_warr V c) (g1_barr V c) r f := by
  have h0 : ¬t.val % 4 = 0 := by omega
  have hacc := g1_acc_eq V c t.val t.isLt p q r f hr hf
  rw [outsAt0_C V c t h0 h3] at hacc ⊢
  dsimp only at hacc ⊢
  refine (congrFun (out0_C_eq (F := Ideal) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h3) (g1_xblk V c t) (g1_wblk V c t) (g1_bblk V c t) (outsAt0 V c (t.val - 1) (Nat.lt_of_le_of_lt (Nat.sub_le _ _) t.isLt)).2) (ix2 p q)).trans ?_
  refine (Cert.KernelIdeal.Payloads.k0_pay3_apply (k0_pay2 (outsAt0 V c (t.val - 1) (Nat.lt_of_le_of_lt (Nat.sub_le _ _) t.isLt)).2 (g1_xblk V c t) (g1_wblk V c t)) (g1_bblk V c t) p q).trans ?_
  rw [sout0_C_eq (F := Ideal) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h3) (g1_xblk V c t) (g1_wblk V c t) (g1_bblk V c t) (outsAt0 V c (t.val - 1) (Nat.lt_of_le_of_lt (Nat.sub_le _ _) t.isLt)).2] at hacc
  rw [hacc, h3, g1_blockTerm_sum, g1_bblk_apply V c t q (ix2 (0 : Fin 1) f) hf]
  rfl

/-- The whole array the first region leaves: the hidden layer. -/
private abbrev g1_hidArr (c : Dev nD) : S4096x16384.Idx → EReal :=
  fun j => Cert.Spec.hid (g1_xarr V c) (g1_warr V c) (g1_barr V c) (j 0) (j 1)

/-- An index of the output array is in point t's block iff each coordinate is in the block's range on its axis. -/
private theorem g1_mem_blk (t : Fin cfg0.N) (i : S4096x16384.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3).slice (win0_3.rect t)).set ↔ _
  rw [View.set_slice_whole, Rect.mem_set_unit]
  exact Iff.rfl

/-- What a last step writes back is its block of the hidden layer. -/
private theorem g1_flushed_eq (c : Dev nD) (t : Fin cfg0.N) (hf : (cfg0.win 3).flush t = true) :
    (dat0 V c).flushed 3 t = ((cfg0.win 3).blk t).view.read (Elt Ideal) (g1_hidArr V c) := by
  have h3 : t.val % 4 = 3 := (flush0_3 t).mp hf
  obtain ⟨-, -, -, -, -, -, e6, e7⟩ := g1_idx_facts t
  show (cfg0.win 3).cut (grid0.coords t) ((dat0 V c).after 3 t) = _
  rw [after0_3]
  funext y
  have hy0 : (y 0).val < 1024 := (y 0).isLt
  have hy1 : (y 1).val < 1024 := (y 1).isLt
  show ((outsAt0 V c t.val t.isLt).1 : S1024x1024.Idx → EReal) ((cfg0.win 3).xinj (grid0.coords t) y)
    = Cert.Spec.hid (g1_xarr V c) (g1_warr V c) (g1_barr V c) ((((cfg0.win 3).blk t).view.emb y) 0) ((((cfg0.win 3).blk t).view.emb y) 1)
  rw [show (cfg0.win 3).xinj (grid0.coords t) y = ix2 (⟨(y 0).val, hy0⟩ : Fin 1024) (⟨(y 1).val, hy1⟩ : Fin 1024) from
    funext fun a => by match a with | ⟨0, _⟩ => rfl | ⟨1, _⟩ => rfl]
  refine g1_out_apply V c t h3 _ _ _ _ ?_ ?_
  · show win0_3.index t (0 : Fin 2) * 1024 + 1 * (y 0).val = t.val / 64 * 1024 + (y 0).val
    rw [e6]; omega
  · show win0_3.index t (1 : Fin 2) * 1024 + 1 * (y 1).val = t.val / 4 % 16 * 1024 + (y 1).val
    rw [e7]; omega

/-- The blocks written back tile the array: row r, feature f lies in the block of the point (r / 1024, f / 1024, 3). -/
private theorem g1_cover (i : S4096x16384.Idx) :
    ∃ t : Fin cfg0.N, (cfg0.win 3).flush t = true ∧ i ∈ ((cfg0.win 3).blk t).view.set := by
  have hi0 : (i 0).val < 4096 := idx2_lt0 i
  have hi1 : (i 1).val < 16384 := idx2_lt1 i
  have hN : cfg0.N = 256 := N_0
  have ht : (i 0).val / 1024 * 64 + (i 1).val / 1024 * 4 + 3 < cfg0.N := by rw [hN]; omega
  obtain ⟨-, -, -, -, -, -, e6, e7⟩ := g1_idx_facts ⟨_, ht⟩
  refine ⟨⟨_, ht⟩, (flush0_3 ⟨_, ht⟩).mpr (by show ((i 0).val / 1024 * 64 + (i 1).val / 1024 * 4 + 3) % 4 = 3; omega), ?_⟩
  rw [g1_mem_blk]
  intro a
  match a with
  | ⟨0, _⟩ =>
    show win0_3.index ⟨_, ht⟩ (0 : Fin 2) * 1024 ≤ (i 0).val ∧ (i 0).val < win0_3.index ⟨_, ht⟩ (0 : Fin 2) * 1024 + 1024
    rw [e6]
    show ((i 0).val / 1024 * 64 + (i 1).val / 1024 * 4 + 3) / 64 * 1024 ≤ (i 0).val ∧ (i 0).val < ((i 0).val / 1024 * 64 + (i 1).val / 1024 * 4 + 3) / 64 * 1024 + 1024
    omega
  | ⟨1, _⟩ =>
    show win0_3.index ⟨_, ht⟩ (1 : Fin 2) * 1024 ≤ (i 1).val ∧ (i 1).val < win0_3.index ⟨_, ht⟩ (1 : Fin 2) * 1024 + 1024
    rw [e7]
    show ((i 0).val / 1024 * 64 + (i 1).val / 1024 * 4 + 3) / 4 % 16 * 1024 ≤ (i 1).val ∧ (i 1).val < ((i 0).val / 1024 * 64 + (i 1).val / 1024 * 4 + 3) / 4 % 16 * 1024 + 1024
    omega

end Region

theorem gemm1_value (V : (c : Dev nD) → (b : Ref sig .tc) → Buf (Elt Ideal) ((c : Thread nD τ).loc b)) (c : Dev nD) (j : S4096x16384.Idx) :
    ((dat0 (F := Ideal) V c).arrAt 3 cfg0.N : S4096x16384.Idx → EReal) j
      = Cert.Spec.hid (V c main_v0) (V c main_arg1) (V c main_v1) (j 0) (j 1) :=
  congrFun ((dat0 (F := Ideal) V c).arrAt_eq_of_cover 3 (g1_hidArr V c) (g1_flushed_eq V c) g1_cover) j

end Cert.KernelIdeal.Frame

end
-- ==== Proof.Gemm2Pieces.lean ====
/-
  What the second GEMM's three case runs leave, as the kernel's stored values of the blocks: the pieces each run found, read back, are the skeleton's payloads — at k = 0 the accumulator step applied to the zero block, at a later k applied to what the step before left, and at the last k the output block is the epilogue of the finished sum and the bias row.
-/
import proofs.«110432_j50285477101612_1_alg».proof.Proof.Gemm2Data
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block rectangle, however they are spelt. -/
private theorem hz : (![0, 0] : Fin 2 → Nat) = fun _ => 0 := funext fun a => by fin_cases a <;> rfl

theorem sout1_A_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .bf16) (x1 : Vec F S1024x1024 .f32) (x2 : Vec F S1x1024 .f32) :
    sout1_A c i arg3 harg3 arg4 harg4 arg5 harg5 arg6 harg6 arg7 harg7 hc0 hc1 x0 x1 x2 = k1_pay2 (k1_pay1 (F := F)) x0 x1 := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S1024x1024) hz, View.readCov_unit_zero (S := S1024x1024) _ hz]
  simp only [View.readAt_eq_ld, harg3.read_unread, harg4.read_unread, harg5.read_unread, harg7.read_unread, View.ld_unit_zero (S := S1024x1024) hz, View.ld_unit_zero (S := S1x1024) hz, View.readCov_unit_zero (S := S1024x1024) _ hz]

theorem sout1_B_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .bf16) (x1 : Vec F S1024x1024 .f32) (x2 : Vec F S1x1024 .f32) (xs0 : Vec F S1024x1024 .f32) :
    sout1_B c i arg3 harg3 arg4 harg4 arg5 harg5 arg6 harg6 arg7 harg7 hc0 hc1 x0 x1 x2 xs0 = k1_pay2 xs0 x0 x1 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  sl_unfold_words
  rw [View.canon_unit_zero hz]
  simp only [View.readAt_eq_ld, harg3.read_unread, harg4.read_unread, harg5.read_unread, harg7.read_unread, View.ld_unit_zero (S := S1024x1024) hz, View.ld_unit_zero (S := S1x1024) hz, View.readCov_unit_zero (S := S1024x1024) _ hz]

theorem sout1_C_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .f32) (x2 : Vec F S1x1024 .f32) (xs0 : Vec F S1024x1024 .f32) :
    sout1_C c i arg3 harg3 arg4 harg4 arg5 harg5 arg6 harg6 arg7 harg7 hc0 hc1 x0 x1 x2 xs0 = k1_pay2 xs0 x0 x1 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_unit_zero hz]
  simp only [View.readAt_eq_ld, harg3.read_unread, harg4.read_unread, harg5.read_unread, harg7.read_unread, View.ld_unit_zero (S := S1024x1024) hz, View.ld_unit_zero (S := S1x1024) hz, View.readCov_unit_zero (S := S1024x1024) _ hz]

theorem out1_C_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .f32) (x2 : Vec F S1x1024 .f32) (xs0 : Vec F S1024x1024 .f32) :
    out1_C c i arg3 harg3 arg4 harg4 arg5 harg5 arg6 harg6 arg7 harg7 hc0 hc1 x0 x1 x2 xs0 = k1_pay3 (k1_pay2 xs0 x0 x1) x2 := by
  unfold out1_C
  rw [View.read_writes_eq_canon _ _ _ (cover1_C c i arg3 harg3 arg4 harg4 arg5 harg5 arg6 harg6 arg7 harg7 hc0 hc1 x0 x1 x2 xs0)]
  unfold kernelRun1_C
  dsimp only
  sl_unfold_words
  rw [View.canon_unit_zero hz]
  simp only [View.readAt_eq_ld, harg3.read_unread, harg4.read_unread, harg5.read_unread, harg7.read_unread, View.ld_unit_zero (S := S1024x1024) hz, View.ld_unit_zero (S := S1x1024) hz, View.readCov_unit_zero (S := S1024x1024) _ hz]

end Cert.KernelIdeal.Frame

end
-- ==== Proof.Gemm2Value.lean ====
/-
  The second GEMM's result array on the extended reals: after the region's last point the output array holds, at row r and column q, the inner product of row r of the hidden array with column q of the second weight array, plus the bias row's entry q. The accumulator after the point (i, j, k) holds the inner products restricted to the first (k + 1) · 1024 terms, by induction on the point; the block stored at k = 15 is the full sum plus the bias; the blocks written back tile the array.
-/
import proofs.«110432_j50285477101612_1_alg».proof.Proof.Gemm2Pieces
import proofs.«110432_j50285477101612_1_alg».proof.Proof.Payloads
import proofs.«110432_j50285477101612_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Value
variable (V : (c : Dev nD) → (b : Ref sig .tc) → Buf (Elt Ideal) ((c : Thread nD τ).loc b))

/-! ## The arrays and the blocks, at their literal types -/

/-- The hidden array [4096, 16384], the second weight array [16384, 4096] and the bias row [1, 4096], as the region finds them. -/
abbrev hidArr (c : Dev nD) : S4096x16384.Idx → EReal := V c main_v3
abbrev wgtArr (c : Dev nD) : S16384x4096.Idx → EReal := V c main_arg3
abbrev biasArr (c : Dev nD) : S1x4096.Idx → EReal := V c main_v2

/-- The three input blocks at a grid point. -/
abbrev hidBlk (c : Dev nD) (t : Fin cfg1.N) : Vec Ideal S1024x1024 .bf16 := iblk1 (F := Ideal) V c 0 t
abbrev wgtBlk (c : Dev nD) (t : Fin cfg1.N) : Vec Ideal S1024x1024 .f32 := iblk1 (F := Ideal) V c 1 t
abbrev biasBlk (c : Dev nD) (t : Fin cfg1.N) : Vec Ideal S1x1024 .f32 := iblk1 (F := Ideal) V c 2 t

/-- The block indices at the linear point t = 64·i + 16·j + k: the hidden block is (i, k), the weight block (k, j),
    the bias block (0, j), the output block (i, j). -/
theorem blk_index : ∀ t : Fin cfg1.N,
    win1_0.index t (0 : Fin 2) = t.val / 64 ∧ win1_0.index t (1 : Fin 2) = t.val % 16
    ∧ win1_1.index t (0 : Fin 2) = t.val % 16 ∧ win1_1.index t (1 : Fin 2) = t.val / 16 % 4
    ∧ win1_2.index t (0 : Fin 2) = 0 ∧ win1_2.index t (1 : Fin 2) = t.val / 16 % 4
    ∧ win1_3.index t (0 : Fin 2) = t.val / 64 ∧ win1_3.index t (1 : Fin 2) = t.val / 16 % 4 :=
  (by decide +kernel : ∀ t : Fin grid1.N, _)

/-! ## Rows and columns over all naturals, and one block of 1024 terms of the inner product -/

/-- Entry f of row r of the hidden array; zero past the last term. -/
def hidAt (c : Dev nD) (r : Fin 4096) (f : ℕ) : EReal := if h : f < 16384 then hidArr V c (ix2 r ⟨f, h⟩) else 0
/-- Entry f of column q of the weight array; zero past the last term. -/
def wgtAt (c : Dev nD) (f : ℕ) (q : Fin 4096) : EReal := if h : f < 16384 then wgtArr V c (ix2 ⟨f, h⟩ q) else 0
/-- Terms k·1024 … k·1024 + 1023 of the inner product of row r with column q. -/
def blkTerm (c : Dev nD) (r q : Fin 4096) (k : ℕ) : EReal :=
  ∑ l : Fin 1024, hidAt V c r (k * 1024 + l.val) * wgtAt V c (k * 1024 + l.val) q

/-! ## The blocks read off the arrays -/

/-- The hidden block at point (i, j, k), at (p, l), is the array's entry (i·1024 + p, k·1024 + l). -/
theorem hidBlk_apply (c : Dev nD) (t : Fin cfg1.N) (p l : Fin 1024) (r : Fin 4096) (k : ℕ)
    (hr : r.val = t.val / 64 * 1024 + p.val) (hk : t.val % 16 = k) :
    hidBlk V c t (ix2 p l) = hidAt V c r (k * 1024 + l.val) := by
  have hl := l.isLt
  have hf : k * 1024 + l.val < 16384 := by omega
  unfold hidAt
  rw [dif_pos hf]
  obtain ⟨e0, e1, -⟩ := blk_index t
  show (iblk1 (F := Ideal) V c 0 t : Vec Ideal S1024x1024 .bf16) (ix2 p l) = _
  unfold iblk1
  rw [View.read_apply]
  show V c main_v3 _ = V c main_v3 _
  congr 1
  funext a
  apply Fin.ext
  match a with
  | ⟨0, _⟩ => show win1_0.index t 0 * 1024 + 1 * p.val = r.val; rw [e0, hr]; omega
  | ⟨1, _⟩ => show win1_0.index t 1 * 1024 + 1 * l.val = k * 1024 + l.val; rw [e1, hk]; omega

/-- The weight block at point (i, j, k), at (l, q), is the array's entry (k·1024 + l, j·1024 + q). -/
theorem wgtBlk_apply (c : Dev nD) (t : Fin cfg1.N) (l q : Fin 1024) (cq : Fin 4096) (k : ℕ)
    (hq : cq.val = t.val / 16 % 4 * 1024 + q.val) (hk : t.val % 16 = k) :
    wgtBlk V c t (ix2 l q) = wgtAt V c (k * 1024 + l.val) cq := by
  have hl := l.isLt
  have hf : k * 1024 + l.val < 16384 := by omega
  unfold wgtAt
  rw [dif_pos hf]
  obtain ⟨-, -, e2, e3, -⟩ := blk_index t
  show (iblk1 (F := Ideal) V c 1 t : Vec Ideal S1024x1024 .f32) (ix2 l q) = _
  unfold iblk1
  rw [View.read_apply]
  show V c main_arg3 _ = V c main_arg3 _
  congr 1
  funext a
  apply Fin.ext
  match a with
  | ⟨0, _⟩ => show win1_1.index t 0 * 1024 + 1 * l.val = k * 1024 + l.val; rw [e2, hk]; omega
  | ⟨1, _⟩ => show win1_1.index t 1 * 1024 + 1 * q.val = cq.val; rw [e3, hq]; omega

/-- The bias block at point (i, j, k), at (0, q), is the bias row's entry j·1024 + q. -/
theorem biasBlk_apply (c : Dev nD) (t : Fin cfg1.N) (q : Fin 1024) (cq : Fin 4096)
    (hq : cq.val = t.val / 16 % 4 * 1024 + q.val) :
    biasBlk V c t (ix2 (0 : Fin 1) q) = biasArr V c (ix2 (0 : Fin 1) cq) := by
  obtain ⟨-, -, -, -, e4, e5, -⟩ := blk_index t
  show (iblk1 (F := Ideal) V c 2 t : Vec Ideal S1x1024 .f32) (ix2 (0 : Fin 1) q) = _
  unfold iblk1
  rw [View.read_apply]
  show V c main_v2 _ = V c main_v2 _
  congr 1
  funext a
  apply Fin.ext
  match a with
  | ⟨0, _⟩ => show win1_2.index t 0 * 1 + 1 * 0 = 0; rw [e4]
  | ⟨1, _⟩ => show win1_2.index t 1 * 1024 + 1 * q.val = cq.val; rw [e5, hq]; omega

/-! ## The accumulator after each point -/

/-- After the point (i, j, k) the accumulator holds, at (p, q), the first k + 1 blocks of terms of the inner product
    of row i·1024 + p of the hidden array with column j·1024 + q of the weight array: at k = 0 the zero block plus
    the first block of terms, at a later k what the point before left (same i and j, one block fewer) plus block k. -/
theorem acc_eq (c : Dev nD) : ∀ (n : ℕ) (hn : n < cfg1.N) (p q : Fin 1024) (r cq : Fin 4096),
    r.val = n / 64 * 1024 + p.val → cq.val = n / 16 % 4 * 1024 + q.val →
    ((outsAt1 (F := Ideal) V c n hn).2 : S1024x1024.Idx → EReal) (ix2 p q)
      = ∑ k ∈ Finset.range (n % 16 + 1), blkTerm V c r cq k := by
  intro n
  induction n using Nat.strong_induction_on with
  | _ n ih =>
    intro hn p q r cq hr hq
    have hN : n < 256 := lt_of_lt_of_eq hn (show cfg1.N = 256 from N_1)
    by_cases h0 : n % 16 = 0
    · have h1 : ¬n % 16 = 15 := by omega
      rw [outsAt1_A V c ⟨n, hn⟩ h0]
      dsimp only
      refine (congrFun (sout1_A_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) ((hcond1_0 ⟨n, hn⟩).mpr h0) (fun h => h1 ((hcond1_1 ⟨n, hn⟩).mp h)) (hidBlk V c ⟨n, hn⟩) (wgtBlk V c ⟨n, hn⟩) (biasBlk V c ⟨n, hn⟩)) (ix2 p q)).trans ?_
      refine (Cert.KernelIdeal.Payloads.k1_pay2_apply (k1_pay1 (F := Ideal)) (hidBlk V c ⟨n, hn⟩) (wgtBlk V c ⟨n, hn⟩) p q).trans ?_
      rw [Cert.KernelIdeal.Payloads.k1_pay1_apply p q, zero_add, h0, zero_add, Finset.sum_range_one]
      unfold blkTerm
      refine Finset.sum_congr rfl fun l _ => ?_
      rw [hidBlk_apply V c ⟨n, hn⟩ p l r 0 hr h0, wgtBlk_apply V c ⟨n, hn⟩ l q cq 0 hq h0]
    · have hprev : n - 1 < n := by omega
      have hn' : n - 1 < cfg1.N := Nat.lt_of_le_of_lt (Nat.sub_le _ _) hn
      have hstep : ((outsAt1 (F := Ideal) V c (n - 1) hn').2 : S1024x1024.Idx → EReal) (ix2 p q)
            + ∑ l : Fin 1024, hidBlk V c ⟨n, hn⟩ (ix2 p l) * wgtBlk V c ⟨n, hn⟩ (ix2 l q)
          = ∑ k ∈ Finset.range (n % 16 + 1), blkTerm V c r cq k := by
        rw [ih (n - 1) hprev hn' p q r cq (by omega) (by omega), show (n - 1) % 16 + 1 = n % 16 by omega,
          Finset.sum_range_succ]
        congr 1
        unfold blkTerm
        refine Finset.sum_congr rfl fun l _ => ?_
        rw [hidBlk_apply V c ⟨n, hn⟩ p l r (n % 16) hr rfl, wgtBlk_apply V c ⟨n, hn⟩ l q cq (n % 16) hq rfl]
      by_cases h1 : n % 16 = 15
      · rw [outsAt1_C V c ⟨n, hn⟩ h0 h1]
        dsimp only
        refine (congrFun (sout1_C_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) (fun h => h0 ((hcond1_0 ⟨n, hn⟩).mp h)) ((hcond1_1 ⟨n, hn⟩).mpr h1) (hidBlk V c ⟨n, hn⟩) (wgtBlk V c ⟨n, hn⟩) (biasBlk V c ⟨n, hn⟩) (outsAt1 (F := Ideal) V c (n - 1) hn').2) (ix2 p q)).trans ?_
        refine (Cert.KernelIdeal.Payloads.k1_pay2_apply (outsAt1 (F := Ideal) V c (n - 1) hn').2 (hidBlk V c ⟨n, hn⟩) (wgtBlk V c ⟨n, hn⟩) p q).trans ?_
        exact hstep
      · rw [outsAt1_B V c ⟨n, hn⟩ h0 h1]
        dsimp only
        refine (congrFun (sout1_B_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) (fun h => h0 ((hcond1_0 ⟨n, hn⟩).mp h)) (fun h => h1 ((hcond1_1 ⟨n, hn⟩).mp h)) (hidBlk V c ⟨n, hn⟩) (wgtBlk V c ⟨n, hn⟩) (biasBlk V c ⟨n, hn⟩) (outsAt1 (F := Ideal) V c (n - 1) hn').2) (ix2 p q)).trans ?_
        refine (Cert.KernelIdeal.Payloads.k1_pay2_apply (outsAt1 (F := Ideal) V c (n - 1) hn').2 (hidBlk V c ⟨n, hn⟩) (wgtBlk V c ⟨n, hn⟩) p q).trans ?_
        exact hstep

/-- The output block a last step (k = 15) stores is the accumulator it leaves plus the bias block's row. -/
theorem out_eq (c : Dev nD) (t : Fin cfg1.N) (h15 : t.val % 16 = 15) (p q : Fin 1024) :
    ((outsAt1 (F := Ideal) V c t.val t.isLt).1 : S1024x1024.Idx → EReal) (ix2 p q)
      = ((outsAt1 (F := Ideal) V c t.val t.isLt).2 : S1024x1024.Idx → EReal) (ix2 p q) + biasBlk V c t (ix2 (0 : Fin 1) q) := by
  have h0 : ¬t.val % 16 = 0 := by omega
  have hn' : t.val - 1 < cfg1.N := Nat.lt_of_le_of_lt (Nat.sub_le _ _) t.isLt
  rw [outsAt1_C V c t h0 h15]
  dsimp only
  rw [out1_C_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h15) (hidBlk V c t) (wgtBlk V c t) (biasBlk V c t) (outsAt1 (F := Ideal) V c (t.val - 1) hn').2,
    sout1_C_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h15) (hidBlk V c t) (wgtBlk V c t) (biasBlk V c t) (outsAt1 (F := Ideal) V c (t.val - 1) hn').2]
  exact Cert.KernelIdeal.Payloads.k1_pay3_apply (k1_pay2 (outsAt1 (F := Ideal) V c (t.val - 1) hn').2 (hidBlk V c t) (wgtBlk V c t)) (biasBlk V c t) p q

/-- All sixteen blocks of terms are the whole inner product. -/
theorem full_sum (c : Dev nD) (r cq : Fin 4096) :
    ∑ k ∈ Finset.range 16, blkTerm V c r cq k = ∑ f : Fin 16384, hidArr V c (ix2 r f) * wgtArr V c (ix2 f cq) := by
  rw [Finset.sum_range]
  refine ((Cert.Spec.sum_blocks 16 1024 (fun f : Fin (16 * 1024) => hidArr V c (ix2 r f) * wgtArr V c (ix2 f cq))).trans ?_).symm
  refine Finset.sum_congr rfl fun k _ => ?_
  unfold blkTerm
  refine Finset.sum_congr rfl fun l _ => ?_
  have hk := k.isLt
  have hl := l.isLt
  have hf : k.val * 1024 + l.val < 16384 := by omega
  unfold hidAt wgtAt
  rw [dif_pos hf, dif_pos hf]

/-! ## From the blocks to the array -/

/-- What the output array ends holding: at (r, q) the inner product of row r of the hidden array with column q of
    the weight array, plus the bias row's entry q. -/
abbrev result (c : Dev nD) : S4096x4096.Idx → EReal := fun j =>
  Cert.Spec.outp (fun r f => hidArr V c (ix2 r f)) (wgtArr V c) (biasArr V c) (j 0) (j 1)

/-- The block a last step stores, at (p, q), is the result at (i·1024 + p, j·1024 + q). -/
theorem out_apply (c : Dev nD) (t : Fin cfg1.N) (h15 : t.val % 16 = 15) (p q : Fin 1024) (r cq : Fin 4096)
    (hr : r.val = t.val / 64 * 1024 + p.val) (hq : cq.val = t.val / 16 % 4 * 1024 + q.val) :
    ((outsAt1 (F := Ideal) V c t.val t.isLt).1 : S1024x1024.Idx → EReal) (ix2 p q)
      = Cert.Spec.outp (fun r f => hidArr V c (ix2 r f)) (wgtArr V c) (biasArr V c) r cq := by
  rw [out_eq V c t h15 p q, acc_eq V c t.val t.isLt p q r cq hr hq, h15, full_sum V c r cq,
    biasBlk_apply V c t q cq hq]
  rfl

/-- What a writing point (k = 15) writes back is its block of the result. -/
theorem flushed_eq (c : Dev nD) (t : Fin cfg1.N) (hf : (cfg1.win 3).flush t = true) :
    (dat1 (F := Ideal) V c).flushed 3 t = ((cfg1.win 3).blk t).view.read (Elt Ideal) (result V c) := by
  have h15 : t.val % 16 = 15 := (flush1_3 t).mp hf
  obtain ⟨-, -, -, -, -, -, e6, e7⟩ := blk_index t
  show (cfg1.win 3).cut (grid1.coords t) ((dat1 (F := Ideal) V c).after 3 t) = _
  rw [after1_3]
  funext y
  obtain ⟨p, q, rfl⟩ : ∃ (p q : Fin 1024), y = ix2 p q := ⟨y 0, y 1, eq_ix2 y⟩
  rw [View.read_apply]
  show ((outsAt1 (F := Ideal) V c t.val t.isLt).1 : S1024x1024.Idx → EReal) (ix2 p q)
    = result V c (((cfg1.win 3).blk t).view.emb (ix2 p q))
  refine out_apply V c t h15 p q _ _ ?_ ?_
  · show win1_3.index t 0 * 1024 + 1 * p.val = _
    rw [e6]; omega
  · show win1_3.index t 1 * 1024 + 1 * q.val = _
    rw [e7]; omega

/-- Row r, column q of the output array lies in the block of the point i = r / 1024, j = q / 1024, k = 15. -/
theorem cover (i : S4096x4096.Idx) :
    ∃ t : Fin cfg1.N, (cfg1.win 3).flush t = true ∧ i ∈ ((cfg1.win 3).blk t).view.set := by
  have h0 : (i 0).val < 4096 := (i 0).isLt
  have h1 : (i 1).val < 4096 := (i 1).isLt
  have hN : cfg1.N = 256 := N_1
  obtain ⟨t, ht⟩ : ∃ t : Fin cfg1.N, t.val = (i 0).val / 1024 * 64 + (i 1).val / 1024 * 16 + 15 :=
    ⟨⟨(i 0).val / 1024 * 64 + (i 1).val / 1024 * 16 + 15, by rw [hN]; omega⟩, rfl⟩
  obtain ⟨-, -, -, -, -, -, e6, e7⟩ := blk_index t
  refine ⟨t, (flush1_3 t).mpr (by omega), ?_⟩
  show i ∈ ((View.whole main_v4).slice (win1_3.rect t)).set
  rw [View.set_slice_whole, Rect.mem_set_unit]
  intro a
  match a with
  | ⟨0, _⟩ =>
    show win1_3.index t 0 * 1024 ≤ (i 0).val ∧ (i 0).val < win1_3.index t 0 * 1024 + 1024
    rw [e6]; omega
  | ⟨1, _⟩ =>
    show win1_3.index t 1 * 1024 ≤ (i 1).val ∧ (i 1).val < win1_3.index t 1 * 1024 + 1024
    rw [e7]; omega

end Value

theorem gemm2_value (V : (c : Dev nD) → (b : Ref sig .tc) → Buf (Elt Ideal) ((c : Thread nD τ).loc b)) (c : Dev nD) (j : S4096x4096.Idx) :
    ((dat1 (F := Ideal) V c).arrAt 3 cfg1.N : S4096x4096.Idx → EReal) j
      = Cert.Spec.outp (fun r f => (V c main_v3 : S4096x16384.Idx → EReal) (ix2 r f)) (V c main_arg3) (V c main_v2) (j 0) (j 1) :=
  congrFun ((dat1 (F := Ideal) V c).arrAt_eq_of_cover 3 (result V c) (flushed_eq V c) cover) j

end Cert.KernelIdeal.Frame

end
-- ==== Proof.KernelValue.lean ====
/-
  The kernel program's result on the extended reals: the last boundary's contents of the result buffer are the network of the five launch arrays. The three reshapes before the regions only re-index (the activations as 4096 rows, each bias as one row), the first region's result array is the hidden layer, the second region's is the output layer over it, and the last reshape re-indexes back.
-/
import proofs.«110432_j50285477101612_1_alg».proof.Proof.MainRun
import proofs.«110432_j50285477101612_1_alg».proof.Proof.Gemm1Value
import proofs.«110432_j50285477101612_1_alg».proof.Proof.Gemm2Value
import proofs.«110432_j50285477101612_1_alg».proof.Proof.Spec

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The four reshapes, read at an index -/

/-- The activations as 4096 rows: row b·2048 + s of the reshaped array is position s of batch b, the same row-major
    position. -/
private theorem flat_read (x : S2x2048x4096.Idx → EReal) (h : S2x2048x4096.ShapeCasts S4096x4096) (j : S4096x4096.Idx) :
    shapeCast S4096x4096 x h j = Cert.Spec.flat x j := by
  unfold Cert.Spec.flat
  refine shapeCast_apply x h j _ ?_
  rw [Shape.rowMajor_val_three, Shape.rowMajor_val_two]
  show ((j 0).val / 2048 * 2048 + (j 0).val % 2048) * 4096 + (j 1).val = (j 0).val * 4096 + (j 1).val
  omega

/-- A bias vector as one row: entry (0, f) of the reshaped array is entry f. -/
private theorem row_read {n : ℕ} (b : (⟨1, ![n]⟩ : Shape).Idx → EReal) (h : (⟨1, ![n]⟩ : Shape).ShapeCasts ⟨2, ![1, n]⟩)
    (j : (⟨2, ![1, n]⟩ : Shape).Idx) : shapeCast ⟨2, ![1, n]⟩ b h j = Cert.Spec.row b j := by
  unfold Cert.Spec.row
  refine shapeCast_apply b h j _ ?_
  have h0 : (j 0).val < 1 := (j 0).isLt
  rw [Shape.rowMajor_val_one, Shape.rowMajor_val_two]
  show (j 1).val = (j 0).val * n + (j 1).val
  have : (j 0).val = 0 := by omega
  rw [this, Nat.zero_mul, Nat.zero_add]

/-- The rows back as two batches: position s of batch b is row b·2048 + s. -/
private theorem unflat_read (y : S4096x4096.Idx → EReal) (h : S4096x4096.ShapeCasts S2x2048x4096) (i : S2x2048x4096.Idx) :
    shapeCast S2x2048x4096 y h i
      = y (ix2 (⟨(i 0).val * 2048 + (i 1).val, by have h0 := (i 0).isLt; have h1 := (i 1).isLt; change (i 0).val < 2 at h0; change (i 1).val < 2048 at h1; omega⟩ : Fin 4096)
            (⟨(i 2).val, (i 2).isLt⟩ : Fin 4096)) := by
  refine shapeCast_apply y h i _ ?_
  rw [Shape.rowMajor_val_three, Shape.rowMajor_val_two]
  show ((i 0).val * 2048 + (i 1).val) * 4096 + (i 2).val = ((i 0).val * 2048 + (i 1).val) * 4096 + (i 2).val
  rfl

/-! ## What the regions are entered with -/

section Boundaries

variable (m : (ℓ : Loc nD τ sig) → Buf (Elt Ideal) ℓ) (ρ : Dev nD → PrngReg) (c : Dev nD)

/-- The first region's x array is the activations as 4096 rows. -/
private theorem ent0_x :
    (ent0 (F := Ideal) m ρ c main_v0 : S4096x4096.Idx → EReal) = Cert.Spec.flat (m ((c : Thread nD τ).loc main_arg0)) := by
  have e : (ent0 (F := Ideal) m ρ c main_v0 : S4096x4096.Idx → EReal)
      = shapeCast S4096x4096 (m ((c : Thread nD τ).loc main_arg0) : S2x2048x4096.Idx → EReal) shapeCasts_S2x2048x4096_S4096x4096 := by
    show StableHlo.after hostOps0 _ (Proc.devRef .tc main_v0) = _
    after_results
    rfl
  rw [e]
  exact funext fun j => flat_read _ _ j

/-- The first region's bias row is the first bias vector as one row. -/
private theorem ent0_b1 :
    (ent0 (F := Ideal) m ρ c main_v1 : S1x16384.Idx → EReal) = Cert.Spec.row (m ((c : Thread nD τ).loc main_arg2)) := by
  have e : (ent0 (F := Ideal) m ρ c main_v1 : S1x16384.Idx → EReal)
      = shapeCast S1x16384 (m ((c : Thread nD τ).loc main_arg2) : S16384.Idx → EReal) shapeCasts_S16384_S1x16384 := by
    show StableHlo.after hostOps0 _ (Proc.devRef .tc main_v1) = _
    after_results
    rfl
  rw [e]
  exact funext fun j => row_read _ _ j

/-- The first region's weight array is the first weight array as launched: no reshape writes it. -/
private theorem ent0_w1 : ent0 (F := Ideal) m ρ c main_arg1 = m ((c : Thread nD τ).loc main_arg1) :=
  (StableHlo.after_of_writes_sub hostOps0 _ hostOps0_writes (by decide : main_arg1 ∉ hostOps0_W)).trans rfl

/-- The second region's bias row is the second bias vector as one row: the first region leaves it as the reshape wrote it. -/
private theorem ent1_b2 :
    (ent1 (F := Ideal) m ρ c main_v2 : S1x4096.Idx → EReal) = Cert.Spec.row (m ((c : Thread nD τ).loc main_arg4)) := by
  have e : (ent1 (F := Ideal) m ρ c main_v2 : S1x4096.Idx → EReal)
      = shapeCast S1x4096 (m ((c : Thread nD τ).loc main_arg4) : S4096.Idx → EReal) shapeCasts_S4096_S1x4096 := by
    refine (bnd2_of_ne m ρ c main_v2 (by decide)).trans ?_
    show StableHlo.after hostOps0 _ (Proc.devRef .tc main_v2) = _
    after_results
    rfl
  rw [e]
  exact funext fun j => row_read _ _ j

/-- The second region's weight array is the second weight array as launched. -/
private theorem ent1_w2 : ent1 (F := Ideal) m ρ c main_arg3 = m ((c : Thread nD τ).loc main_arg3) :=
  (bnd2_of_ne m ρ c main_arg3 (by decide)).trans
    ((StableHlo.after_of_writes_sub hostOps0 _ hostOps0_writes (by decide : main_arg3 ∉ hostOps0_W)).trans rfl)

/-! ## The regions' result arrays -/

/-- The second region's hidden array is the hidden layer of the launch arrays: the first region's result array. -/
private theorem ent1_h (r : Fin 4096) (f : Fin 16384) :
    (ent1 (F := Ideal) m ρ c main_v3 : S4096x16384.Idx → EReal) (ix2 r f)
      = Cert.Spec.hid (Cert.Spec.flat (m ((c : Thread nD τ).loc main_arg0))) (m ((c : Thread nD τ).loc main_arg1))
          (Cert.Spec.row (m ((c : Thread nD τ).loc main_arg2))) r f := by
  have e : (ent1 (F := Ideal) m ρ c main_v3 : S4096x16384.Idx → EReal)
      = ((dat0 (F := Ideal) (ent0 m ρ) c).arrAt 3 cfg0.N : S4096x16384.Idx → EReal) := bnd2_arr m ρ c 3
  rw [e, gemm1_value (ent0 m ρ) c (ix2 r f), ent0_x m ρ c, ent0_w1 m ρ c, ent0_b1 m ρ c]

/-- The second region's result array is the output layer over the hidden layer. -/
private theorem bnd3_out (r : Fin 4096) (q : Fin 4096) :
    (bnd3 (F := Ideal) m ρ c (Proc.devRef .tc main_v4) : S4096x4096.Idx → EReal) (ix2 r q)
      = Cert.Spec.outp (Cert.Spec.hid (Cert.Spec.flat (m ((c : Thread nD τ).loc main_arg0))) (m ((c : Thread nD τ).loc main_arg1))
          (Cert.Spec.row (m ((c : Thread nD τ).loc main_arg2)))) (m ((c : Thread nD τ).loc main_arg3))
          (Cert.Spec.row (m ((c : Thread nD τ).loc main_arg4))) r q := by
  have e : (bnd3 (F := Ideal) m ρ c (Proc.devRef .tc main_v4) : S4096x4096.Idx → EReal)
      = ((dat1 (F := Ideal) (ent1 m ρ) c).arrAt 3 cfg1.N : S4096x4096.Idx → EReal) := bnd3_arr m ρ c 3
  have eh : (fun (r : Fin 4096) (f : Fin 16384) => (ent1 (F := Ideal) m ρ c main_v3 : S4096x16384.Idx → EReal) (ix2 r f))
      = Cert.Spec.hid (Cert.Spec.flat (m ((c : Thread nD τ).loc main_arg0))) (m ((c : Thread nD τ).loc main_arg1))
          (Cert.Spec.row (m ((c : Thread nD τ).loc main_arg2))) :=
    funext fun r => funext fun f => ent1_h m ρ c r f
  rw [e, gemm2_value (ent1 m ρ) c (ix2 r q), eh, ent1_w2 m ρ c, ent1_b2 m ρ c]

end Boundaries

/-! ## The result buffer -/

theorem kernel_value (m : (ℓ : Loc nD τ sig) → Buf (Elt Ideal) ℓ) (ρ : Dev nD → PrngReg) (c : Dev nD) :
    (bnd4 (F := Ideal) m ρ c (Proc.devRef .tc main_v5) : S2x2048x4096.Idx → EReal)
      = Cert.Spec.mlp (m ((c : Thread nD τ).loc main_arg0)) (m ((c : Thread nD τ).loc main_arg1)) (m ((c : Thread nD τ).loc main_arg2))
          (m ((c : Thread nD τ).loc main_arg3)) (m ((c : Thread nD τ).loc main_arg4)) := by
  have e : (bnd4 (F := Ideal) m ρ c (Proc.devRef .tc main_v5) : S2x2048x4096.Idx → EReal)
      = shapeCast S2x2048x4096 (bnd3 (F := Ideal) m ρ c (Proc.devRef .tc main_v4) : S4096x4096.Idx → EReal) shapeCasts_S4096x4096_S2x2048x4096 := by
    show StableHlo.after hostOps2 _ (Proc.devRef .tc main_v5) = _
    after_results
    rfl
  rw [e]
  funext i
  rw [unflat_read _ _ i, bnd3_out m ρ c]
  rfl

end Cert.KernelIdeal.Frame

end
-- ==== Proof.RefValue.lean ====
/-
  The reference's result on the extended reals, index by index: the host's two `dot_general`s are the two inner
  products, its broadcasts of the bias vectors read the bias at the last coordinate, its elementwise chain is the
  tanh form of GELU (with h³ grouped as (h · h) · h, equal to h · (h · h) by commutativity), so the result is the
  network of the five arguments.
-/
import proofs.«110432_j50285477101612_1_alg».proof.Proof.Gen.ReferenceIdeal.Run
import proofs.«110432_j50285477101612_1_alg».proof.Proof.Gen.ReferenceIdeal.Read
import proofs.«110432_j50285477101612_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The elementwise chain after the first bias, at one index: the tanh form of GELU of the pre-activation. -/
private theorem act_eq (x0 : (⟨S2x2048x4096, .f32⟩ : BufTy).Contents (Elt Ideal)) (x1 : (⟨S4096x16384, .f32⟩ : BufTy).Contents (Elt Ideal)) (x2 : (⟨S16384, .f32⟩ : BufTy).Contents (Elt Ideal)) (j : S2x2048x16384.Idx) :
    val_main_v16 (F := Ideal) x0 x1 x2 j = Cert.Spec.gelu (val_main_v3 (F := Ideal) x0 x1 x2 j) := by
  rw [val_main_v16_apply, val_main_v15_apply, val_main_v14_apply, val_main_cst_2_apply, val_main_v13_apply, val_main_v12_apply,
    val_main_cst_1_apply, val_main_v11_apply, val_main_v10_apply, val_main_v9_apply, val_main_cst_0_apply, val_main_v8_apply,
    val_main_v7_apply, val_main_v6_apply, val_main_cst_apply, val_main_v5_apply, val_main_v4_apply]
  generalize val_main_v3 (F := Ideal) x0 x1 x2 j = h
  simp only [Ideal.addf_def, Ideal.mulf_def, Ideal.hostUnary_tanh_def, Ideal.ofBits_def]
  unfold Cert.Spec.gelu
  rw [mul_comm (h * h) h]

/-- The pre-activation at batch `a`, position `b`, feature `f`: the inner product of row a·2048 + b of the flattened
    activations with column `f` of the first weight, plus the first bias at `f`. -/
private theorem pre_eq (x0 : (⟨S2x2048x4096, .f32⟩ : BufTy).Contents (Elt Ideal)) (x1 : (⟨S4096x16384, .f32⟩ : BufTy).Contents (Elt Ideal)) (x2 : (⟨S16384, .f32⟩ : BufTy).Contents (Elt Ideal))
    (a : Fin 2) (b : Fin 2048) (f : Fin 16384) (r : Fin 4096) (hr : r.val = a.val * 2048 + b.val) :
    val_main_v3 (F := Ideal) x0 x1 x2 (ix3 a b f)
      = (∑ l : Fin 4096, Cert.Spec.flat x0 (ix2 r l) * x1 (ix2 l f)) + Cert.Spec.row x2 (ix2 (0 : Fin 1) f) := by
  rw [val_main_v3_apply, val_main_v0_apply, val_main_v2_apply, val_main_v1_apply, Ideal.addf_def]
  have eb : x2 (idx_main_v1 (idx_main_v2 (ix3 a b f))) = Cert.Spec.row x2 (ix2 (0 : Fin 1) f) :=
    congrArg x2 (funext fun d => Fin.ext (by match d with | ⟨0, _⟩ => rfl))
  rw [eb]
  refine congrArg (· + Cert.Spec.row x2 (ix2 (0 : Fin 1) f)) (Finset.sum_congr rfl fun l _ => ?_)
  have ew : ridx_main_v0 (ix3 a b f) l = ix2 l f := funext fun d => Fin.ext (by
    match d with
    | ⟨0, _⟩ => rfl
    | ⟨1, _⟩ => rfl)
  have ex : x0 (lidx_main_v0 (ix3 a b f) l) = Cert.Spec.flat x0 (ix2 r l) :=
    congrArg x0 (funext fun d => Fin.ext (by
      match d with
      | ⟨0, _⟩ => show a.val = r.val / 2048; have := b.isLt; omega
      | ⟨1, _⟩ => show b.val = r.val % 2048; have := b.isLt; omega
      | ⟨2, _⟩ => rfl))
  rw [ew, ex]

theorem result_eq (x0 : (⟨S2x2048x4096, .f32⟩ : BufTy).Contents (Elt Ideal)) (x1 : (⟨S4096x16384, .f32⟩ : BufTy).Contents (Elt Ideal)) (x2 : (⟨S16384, .f32⟩ : BufTy).Contents (Elt Ideal)) (x3 : (⟨S16384x4096, .f32⟩ : BufTy).Contents (Elt Ideal)) (x4 : (⟨S4096, .f32⟩ : BufTy).Contents (Elt Ideal)) :
    (val_main_v20 (F := Ideal) x0 x1 x2 x3 x4 : S2x2048x4096.Idx → EReal) = Cert.Spec.mlp x0 x1 x2 x3 x4 := by
  funext i
  obtain ⟨a, b, q, rfl⟩ : ∃ (a : Fin 2) (b : Fin 2048) (q : Fin 4096), i = ix3 a b q := ⟨i 0, i 1, i 2, eq_ix3 i⟩
  rw [val_main_v20_apply, val_main_v17_apply, val_main_v19_apply, val_main_v18_apply, Ideal.addf_def]
  have hlt : a.val * 2048 + b.val < 4096 := by have h0 := a.isLt; have h1 := b.isLt; omega
  have eb : x4 (idx_main_v18 (idx_main_v19 (ix3 a b q))) = Cert.Spec.row x4 (ix2 (0 : Fin 1) q) :=
    congrArg x4 (funext fun d => Fin.ext (by match d with | ⟨0, _⟩ => rfl))
  have es : ∀ f : Fin 16384, val_main_v16 (F := Ideal) x0 x1 x2 (lidx_main_v17 (ix3 a b q) f) * x3 (ridx_main_v17 (ix3 a b q) f)
      = Cert.Spec.hid (Cert.Spec.flat x0) x1 (Cert.Spec.row x2) (⟨a.val * 2048 + b.val, hlt⟩ : Fin 4096) f * x3 (ix2 f q) := by
    intro f
    have el : lidx_main_v17 (ix3 a b q) f = ix3 a b f := funext fun d => Fin.ext (by
      match d with
      | ⟨0, _⟩ => rfl
      | ⟨1, _⟩ => rfl
      | ⟨2, _⟩ => rfl)
    have er : ridx_main_v17 (ix3 a b q) f = ix2 f q := funext fun d => Fin.ext (by
      match d with
      | ⟨0, _⟩ => rfl
      | ⟨1, _⟩ => rfl)
    rw [act_eq, el, er, pre_eq x0 x1 x2 a b f (⟨a.val * 2048 + b.val, hlt⟩ : Fin 4096) rfl]
    unfold Cert.Spec.hid
    rfl
  rw [eb, Finset.sum_congr rfl fun f _ => es f]
  rfl

end Cert.ReferenceIdeal.RefValue

end
-- ==== Proof.lean ====
/-
  The certificate of the two-GEMM perceptron, out = gelu(x · W₁ + b₁) · W₂ + b₂ (tanh form of GELU), as two Pallas
  kernels against the jnp reference, over the extended reals.
  Frames. The kernel program is three reshapes, two pipelined regions and a reshape. Each region's body is run in its
  three control cases (accumulator zeroed at k = 0, plain accumulation, epilogue at the last k); the accumulator is
  carried from grid point to grid point in the region's invariant; the two regions and the host stretches are composed
  as segments, and the run ends with every unscoped buffer at contents that are a fold from the launch memory, in
  which no argument array is written. The same text proves the word-level program's frame and the idealized one's.
  The reference's frame is its run with the result dropped.
  Values. On the extended reals the casts to bf16 are the identity, the product unit started from zero is the plain
  inner product, and a 4096- (or 16384-) term inner product accumulated 1024 terms at a time from zero is the whole
  inner product, because addition there is commutative and associative; so the first region's result is the hidden
  layer, the second's the output layer over it, and the reference's composed term is the same function of the five
  arguments. No finiteness of the inputs is used.
  The idealization rewrote nothing, so `preserves` is trivial.
-/
import proofs.«110432_j50285477101612_1_alg».proof.Defs
import proofs.«110432_j50285477101612_1_alg».proof.Proof.Gen.Kernel
import proofs.«110432_j50285477101612_1_alg».proof.Proof.Gen.Kernel.Skeleton
import proofs.«110432_j50285477101612_1_alg».proof.Proof.Gen.Kernel.Launch
import proofs.«110432_j50285477101612_1_alg».proof.Proof.Gen.Kernel.Regions
import proofs.«110432_j50285477101612_1_alg».proof.Proof.Gen.Kernel.Points
import proofs.«110432_j50285477101612_1_alg».proof.Proof.Gen.KernelIdeal
import proofs.«110432_j50285477101612_1_alg».proof.Proof.Gen.KernelIdeal.Skeleton
import proofs.«110432_j50285477101612_1_alg».proof.Proof.Gen.KernelIdeal.Launch
import proofs.«110432_j50285477101612_1_alg».proof.Proof.Gen.KernelIdeal.Regions
import proofs.«110432_j50285477101612_1_alg».proof.Proof.Gen.KernelIdeal.Points
import proofs.«110432_j50285477101612_1_alg».proof.Proof.Gen.ReferenceIdeal
import proofs.«110432_j50285477101612_1_alg».proof.Proof.Gen.Pre_finite_inputs
import proofs.«110432_j50285477101612_1_alg».proof.Proof.Gen.ReferenceIdeal.Run
import proofs.«110432_j50285477101612_1_alg».proof.Proof.Gen.ReferenceIdeal.Read
import proofs.«110432_j50285477101612_1_alg».proof.Proof.BitsMainRun
import proofs.«110432_j50285477101612_1_alg».proof.Proof.MainRun
import proofs.«110432_j50285477101612_1_alg».proof.Proof.KernelValue
import proofs.«110432_j50285477101612_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame (F := Bits) m ρ
theorem frame_ki : Cert.frame_KernelIdeal := fun m ρ _ => Cert.KernelIdeal.Frame.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the (agreeing) argument arrays in their result buffers. -/
theorem algebraic : Cert.algebraic_KernelIdeal_ReferenceIdeal := by
  intro m ρ m' ρ' _ hagree
  refine ⟨fun c => Cert.Spec.mlp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Frame.run_all (F := Ideal) m ρ)
    exact ⟨(h c _ (Cert.KernelIdeal.Frame.mem_uc Cert.KernelIdeal.main_v5 (by decide))).trans (Cert.KernelIdeal.Frame.kernel_value m ρ c),
      (h c _ (Cert.KernelIdeal.Frame.mem_uc Cert.KernelIdeal.main_arg0 (by decide))).trans (Cert.KernelIdeal.Frame.bnd4_main_arg0 m ρ c),
      (h c _ (Cert.KernelIdeal.Frame.mem_uc Cert.KernelIdeal.main_arg1 (by decide))).trans (Cert.KernelIdeal.Frame.bnd4_main_arg1 m ρ c),
      (h c _ (Cert.KernelIdeal.Frame.mem_uc Cert.KernelIdeal.main_arg2 (by decide))).trans (Cert.KernelIdeal.Frame.bnd4_main_arg2 m ρ c),
      (h c _ (Cert.KernelIdeal.Frame.mem_uc Cert.KernelIdeal.main_arg3 (by decide))).trans (Cert.KernelIdeal.Frame.bnd4_main_arg3 m ρ c),
      (h c _ (Cert.KernelIdeal.Frame.mem_uc Cert.KernelIdeal.main_arg4 (by decide))).trans (Cert.KernelIdeal.Frame.bnd4_main_arg4 m ρ c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.ReferenceIdeal.RefValue.result_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
